-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192x3 : Shape := ⟨3, ![1, 8192, 3]⟩
abbrev S_ : Shape := ⟨0, ![]⟩

class Facts : Prop where
  bcast_S_S1x8192x3 : S_.BroadcastsInDim S1x8192x3 (![] : Fin 0 → Fin S1x8192x3.rank)
  reducesTo_S1x8192x3_S_d0_1_2 : S1x8192x3.ReducesTo [0, 1, 2] S_
  h_S_ : 0 < S_.numel

variable [Facts]

def fn {F : FTy → Type} [FloatOps F] (main_arg0 : FVec F S1x8192x3 .f32) (main_arg1 : FVec F S1x8192x3 .f32) : IVec S_ 1 :=
  let main_v0 : FVec F S1x8192x3 .f32 := Host.absf main_arg0
  let main_cst : FVec F S_ .f32 := constant S_ .f32 0x7F800000#32
  let main_v1 : FVec F S1x8192x3 .f32 := broadcastInDim S1x8192x3 ![] bcast_S_S1x8192x3 main_cst
  let main_v2 : IVec S1x8192x3 1 := cmpf .olt main_v0 main_v1
  let main_c : IVec S_ 1 := constantI S_ 1 1#1
  let main_v3 : IVec S_ 1 := (fun x v => Host.reduce IntOp.andi x v reducesTo_S1x8192x3_S_d0_1_2 h_S_) main_v2 main_c
  let main_v4 : FVec F S1x8192x3 .f32 := Host.absf main_arg1
  let main_cst_0 : FVec F S_ .f32 := constant S_ .f32 0x7F800000#32
  let main_v5 : FVec F S1x8192x3 .f32 := broadcastInDim S1x8192x3 ![] bcast_S_S1x8192x3 main_cst_0
  let main_v6 : IVec S1x8192x3 1 := cmpf .olt main_v4 main_v5
  let main_c_1 : IVec S_ 1 := constantI S_ 1 1#1
  let main_v7 : IVec S_ 1 := (fun x v => Host.reduce IntOp.andi x v reducesTo_S1x8192x3_S_d0_1_2 h_S_) main_v6 main_c_1
  let main_v8 : IVec S_ 1 := andi main_v3 main_v7
  main_v8
-- ==== Kernel.lean ====
abbrev S1x8192x3 : Shape := ⟨3, ![1, 8192, 3]⟩
abbrev S1x512x3 : Shape := ⟨3, ![1, 512, 3]⟩
abbrev S512x1 : Shape := ⟨2, ![512, 1]⟩
abbrev S512x3 : Shape := ⟨2, ![512, 3]⟩
abbrev S512 : Shape := ⟨1, ![512]⟩
abbrev S3x512 : Shape := ⟨2, ![3, 512]⟩
abbrev S512x512 : Shape := ⟨2, ![512, 512]⟩
abbrev S1x512 : Shape := ⟨2, ![1, 512]⟩

abbrev nBuf : Space → Nat
  | .hbm => 4
  | .vmem => 15
  | .smem => 0
  | _ => 0

abbrev bufTy : (tb : Table) → Fin (tcTables nBuf tb) → BufTy
  | .hbm, ⟨0, _⟩ => ⟨S1x8192x3, .f32⟩
  | .hbm, ⟨1, _⟩ => ⟨S1x8192x3, .f32⟩
  | .hbm, ⟨2, _⟩ => ⟨S1x8192x3, .f32⟩
  | .hbm, ⟨3, _⟩ => ⟨S1x8192x3, .f32⟩
  | .local _ .vmem, ⟨0, _⟩ => ⟨S1x512x3, .f32⟩
  | .local _ .vmem, ⟨1, _⟩ => ⟨S1x512x3, .f32⟩
  | .local _ .vmem, ⟨2, _⟩ => ⟨S1x512x3, .f32⟩
  | .local _ .vmem, ⟨3, _⟩ => ⟨S1x512x3, .f32⟩
  | .local _ .vmem, ⟨4, _⟩ => ⟨S1x512x3, .f32⟩
  | .local _ .vmem, ⟨5, _⟩ => ⟨S1x512x3, .f32⟩
  | .local _ .vmem, ⟨6, _⟩ => ⟨S1x512x3, .f32⟩
  | .local _ .vmem, ⟨7, _⟩ => ⟨S1x512x3, .f32⟩
  | .local _ .vmem, ⟨8, _⟩ => ⟨S1x512x3, .f32⟩
  | .local _ .vmem, ⟨9, _⟩ => ⟨S1x512x3, .f32⟩
  | .local _ .vmem, ⟨10, _⟩ => ⟨S1x512x3, .f32⟩
  | .local _ .vmem, ⟨11, _⟩ => ⟨S1x512x3, .f32⟩
  | .local _ .vmem, ⟨12, _⟩ => ⟨S512x1, .f32⟩
  | .local _ .vmem, ⟨13, _⟩ => ⟨S512x3, .f32⟩
  | .local _ .vmem, ⟨14, _⟩ => ⟨S512x3, .f32⟩
  | _, _ => ⟨S1x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v55 : BitVec 1 := Scalar.cmpi .eq arg1 c15_i32
  let v56 : BitVec 32 := Scalar.extui v55
  let c0_i32_32 : BitVec 32 := 0#32
  let v57 : BitVec 1 := Scalar.cmpi .ne v56 c0_i32_32
  v57

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x3_S512x3_0_0 : ∀ a, (![0, 0] : Fin 2 → Nat) a + S512x3.size a ≤ S512x3.size a
  h_S512x3 : 0 < S512x3.numel
  shapeCasts_S512x3_S512x3 : S512x3.ShapeCasts S512x3
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  reduces_S512x3_S512 : S512x3.Reduces [1] S512
  shapeCasts_S512_S512x1 : S512.ShapeCasts S512x1
  transposes_S512x3_p1_0_S3x512 : S512x3.Transposes [1, 0] S3x512
  transposes_S512x1_p1_0_S1x512 : S512x1.Transposes [1, 0] S1x512
  broadcasts_S512x1_S512x512 : S512x1.Broadcasts S512x512
  broadcasts_S1x512_S512x512 : S1x512.Broadcasts S512x512
  reduces_S512x512_S512 : S512x512.Reduces [1] S512
  bitsLt_bf16_f32 : FTy.bits .bf16 < FTy.bits .f32
  broadcasts_S512x1_S512x3 : S512x1.Broadcasts S512x3
  shapeCasts_S512x3_S1x512x3 : S512x3.ShapeCasts S1x512x3
  dot_S512x3_S3x512_S512x512_1_0_0_1_n_n_wf : DotDims.WF S512x3 S3x512 S512x512 [1] [0] [0] [1] [] []
  dot_S512x512_S512x3_S512x3_1_0_0_1_n_n_wf : DotDims.WF S512x512 S512x3 S512x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S1x8192x3.size a
  hwx0_0 : ∀ i : grid0.Coords, EltTy.bits .f32 = 32 ∨ (Rect.block (s := S1x8192x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x3.size a ≤ S1x8192x3.size a
  hwx0_1 : ∀ i : grid0.Coords, EltTy.bits .f32 = 32 ∨ (Rect.block (s := S1x8192x3) S1x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x3.size a ≤ S1x8192x3.size a
  hwx0_2 : ∀ i : grid0.Coords, EltTy.bits .f32 = 32 ∨ (Rect.block (s := S1x8192x3) S1x512x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x3.size a ≤ S1x8192x3.size a
  hwx0_3 : ∀ i : grid0.Coords, EltTy.bits .f32 = 32 ∨ (Rect.block (s := S1x8192x3) S1x512x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x3.size a ≤ S1x8192x3.size a
  hwx0_4 : ∀ i : grid0.Coords, EltTy.bits .f32 = 32 ∨ (Rect.block (s := S1x8192x3) S1x512x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x3.size a ≤ S1x8192x3.size a
  hwx0_5 : ∀ i : grid0.Coords, EltTy.bits .f32 = 32 ∨ (Rect.block (s := S1x8192x3) S1x512x3.size (cc0_transform_5 i) (hinb0_5 i)).WholeWords (EltTy.packing .f32)

variable [Facts₀]

def dot_S512x3_S3x512_S512x512_1_0_0_1_n_n : DotDims S512x3 S3x512 S512x512 where
  lhsContracting := [1]
  rhsContracting := [0]
  lhsNonContracting := [0]
  rhsNonContracting := [1]
  lhsBatch := []
  rhsBatch := []
  wf := dot_S512x3_S3x512_S512x512_1_0_0_1_n_n_wf
def dot_S512x512_S512x3_S512x3_1_0_0_1_n_n : DotDims S512x512 S512x3 S512x3 where
  lhsContracting := [1]
  rhsContracting := [0]
  lhsNonContracting := [0]
  rhsNonContracting := [1]
  lhsBatch := []
  rhsBatch := []
  wf := dot_S512x512_S512x3_S512x3_1_0_0_1_n_n_wf

abbrev win0_0 : Pipeline.Window sig grid0 :=
  Pipeline.Window.ofSpec (Memref.whole main_arg1) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x512x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1x512x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x512x3.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x512x3.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S1x8192x3 : Shape := ⟨3, ![1, 8192, 3]⟩
abbrev S_ : Shape := ⟨0, ![]⟩
abbrev S1x8192 : Shape := ⟨2, ![1, 8192]⟩
abbrev S1x8192x8192 : Shape := ⟨3, ![1, 8192, 8192]⟩
abbrev S1x8192x1 : Shape := ⟨3, ![1, 8192, 1]⟩
abbrev S1x1x8192 : Shape := ⟨3, ![1, 1, 8192]⟩

abbrev nBuf : Space → Nat
  | .hbm => 56
  | .vmem => 0
  | .smem => 0
  | _ => 0

abbrev bufTy : (tb : Table) → Fin (tcTables nBuf tb) → BufTy
  | .hbm, ⟨0, _⟩ => ⟨S1x8192x3, .f32⟩
  | .hbm, ⟨1, _⟩ => ⟨S1x8192x3, .f32⟩
  | .hbm, ⟨2, _⟩ => ⟨S1x8192x3, .f32⟩
  | .hbm, ⟨3, _⟩ => ⟨S_, .f32⟩
  | .hbm, ⟨4, _⟩ => ⟨S1x8192, .f32⟩
  | .hbm, ⟨5, _⟩ => ⟨S1x8192x3, .f32⟩
  | .hbm, ⟨6, _⟩ => ⟨S_, .f32⟩
  | .hbm, ⟨7, _⟩ => ⟨S1x8192, .f32⟩
  | .hbm, ⟨8, _⟩ => ⟨S1x8192x8192, .f32⟩
  | .hbm, ⟨9, _⟩ => ⟨S1x8192x1, .f32⟩
  | .hbm, ⟨10, _⟩ => ⟨S1x1x8192, .f32⟩
  | .hbm, ⟨11, _⟩ => ⟨S1x8192x8192, .f32⟩
  | .hbm, ⟨12, _⟩ => ⟨S1x8192x8192, .f32⟩
  | .hbm, ⟨13, _⟩ => ⟨S1x8192x8192, .f32⟩
  | .hbm, ⟨14, _⟩ => ⟨S_, .f32⟩
  | .hbm, ⟨15, _⟩ => ⟨S1x8192x8192, .f32⟩
  | .hbm, ⟨16, _⟩ => ⟨S1x8192x8192, .f32⟩
  | .hbm, ⟨17, _⟩ => ⟨S1x8192x8192, .f32⟩
  | .hbm, ⟨18, _⟩ => ⟨S_, .f32⟩
  | .hbm, ⟨19, _⟩ => ⟨S1x8192x8192, .f32⟩
  | .hbm, ⟨20, _⟩ => ⟨S1x8192x8192, .f32⟩
  | .hbm, ⟨21, _⟩ => ⟨S1x8192x8192, .f32⟩
  | .hbm, ⟨22, _⟩ => ⟨S1x8192x8192, .f32⟩
  | .hbm, ⟨23, _⟩ => ⟨S1x8192x8192, .f32⟩
  | .hbm, ⟨24, _⟩ => ⟨S_, .f32⟩
  | .hbm, ⟨25, _⟩ => ⟨S1x8192, .f32⟩
  | .hbm, ⟨26, _⟩ => ⟨S1x8192x3, .f32⟩
  | .hbm, ⟨27, _⟩ => ⟨S1x8192x1, .f32⟩
  | .hbm, ⟨28, _⟩ => ⟨S1x8192x3, .f32⟩
  | .hbm, ⟨29, _⟩ => ⟨S1x8192x3, .f32⟩
  | .hbm, ⟨30, _⟩ => ⟨S1x8192x3, .f32⟩
  | .hbm, ⟨31, _⟩ => ⟨S_, .f32⟩
  | .hbm, ⟨32, _⟩ => ⟨S1x8192x3, .f32⟩
  | .hbm, ⟨33, _⟩ => ⟨S1x8192x3, .f32⟩
  | .hbm, ⟨34, _⟩ => ⟨S1x8192x3, .f32⟩
  | .hbm, ⟨35, _⟩ => ⟨S1x8192x3, .f32⟩
  | .hbm, ⟨36, _⟩ => ⟨S_, .f32⟩
  | .hbm, ⟨37, _⟩ => ⟨S1x8192, .f32⟩
  | .hbm, ⟨38, _⟩ => ⟨S1x8192x3, .f32⟩
  | .hbm, ⟨39, _⟩ => ⟨S_, .f32⟩
  | .hbm, ⟨40, _⟩ => ⟨S1x8192, .f32⟩
  | .hbm, ⟨41, _⟩ => ⟨S1x8192x8192, .f32⟩
  | .hbm, ⟨42, _⟩ => ⟨S1x8192x1, .f32⟩
  | .hbm, ⟨43, _⟩ => ⟨S1x1x8192, .f32⟩
  | .hbm, ⟨44, _⟩ => ⟨S1x8192x8192, .f32⟩
  | .hbm, ⟨45, _⟩ => ⟨S1x8192x8192, .f32⟩
  | .hbm, ⟨46, _⟩ => ⟨S1x8192x8192, .f32⟩
  | .hbm, ⟨47, _⟩ => ⟨S_, .f32⟩
  | .hbm, ⟨48, _⟩ => ⟨S1x8192x8192, .f32⟩
  | .hbm, ⟨49, _⟩ => ⟨S1x8192x8192, .f32⟩
  | .hbm, ⟨50, _⟩ => ⟨S1x8192x8192, .f32⟩
  | .hbm, ⟨51, _⟩ => ⟨S_, .f32⟩
  | .hbm, ⟨52, _⟩ => ⟨S1x8192x8192, .f32⟩
  | .hbm, ⟨53, _⟩ => ⟨S1x8192x8192, .f32⟩
  | .hbm, ⟨54, _⟩ => ⟨S1x8192x8192, .f32⟩
  | .hbm, ⟨55, _⟩ => ⟨S1x8192x3, .f32⟩
  | _, _ => ⟨S1x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩
abbrev main_v29 : Ref sig .tc := ⟨.hbm, 38, rfl⟩
abbrev main_cst_6 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_7 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_8 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]

class Facts₀ : Prop where
  reducesTo_S1x8192x3_S1x8192_d2 : S1x8192x3.ReducesTo [2] S1x8192
  h_S_ : 0 < S_.numel
  bcast_S1x8192_S1x8192x1_0_1 : S1x8192.BroadcastsInDim S1x8192x1 (![0, 1] : Fin 2 → Fin S1x8192x1.rank)
  bcast_S1x8192_S1x1x8192_0_2 : S1x8192.BroadcastsInDim S1x1x8192 (![0, 2] : Fin 2 → Fin S1x1x8192.rank)
  bcast_S1x8192x1_S1x8192x8192_0_1_2 : S1x8192x1.BroadcastsInDim S1x8192x8192 (![0, 1, 2] : Fin 3 → Fin S1x8192x8192.rank)
  bcast_S1x1x8192_S1x8192x8192_0_1_2 : S1x1x8192.BroadcastsInDim S1x8192x8192 (![0, 1, 2] : Fin 3 → Fin S1x8192x8192.rank)
  bcast_S_S1x8192x8192 : S_.BroadcastsInDim S1x8192x8192 (![] : Fin 0 → Fin S1x8192x8192.rank)
  reducesTo_S1x8192x8192_S1x8192_d2 : S1x8192x8192.ReducesTo [2] S1x8192
  bcast_S1x8192x1_S1x8192x3_0_1_2 : S1x8192x1.BroadcastsInDim S1x8192x3 (![0, 1, 2] : Fin 3 → Fin S1x8192x3.rank)
  bcast_S_S1x8192x3 : S_.BroadcastsInDim S1x8192x3 (![] : Fin 0 → Fin S1x8192x3.rank)
  dot_S1x8192x3_S1x8192x3_S1x8192x8192_2_2_1_1_0_0_wf : DotDims.WF S1x8192x3 S1x8192x3 S1x8192x8192 [2] [2] [1] [1] [0] [0]
  dot_S1x8192x8192_S1x8192x3_S1x8192x3_2_1_1_2_0_0_wf : DotDims.WF S1x8192x8192 S1x8192x3 S1x8192x3 [2] [1] [1] [2] [0] [0]

variable [Facts₀]

def dot_S1x8192x3_S1x8192x3_S1x8192x8192_2_2_1_1_0_0 : DotDims S1x8192x3 S1x8192x3 S1x8192x8192 where
  lhsContracting := [2]
  rhsContracting := [2]
  lhsNonContracting := [1]
  rhsNonContracting := [1]
  lhsBatch := [0]
  rhsBatch := [0]
  wf := dot_S1x8192x3_S1x8192x3_S1x8192x8192_2_2_1_1_0_0_wf
def dot_S1x8192x8192_S1x8192x3_S1x8192x3_2_1_1_2_0_0 : DotDims S1x8192x8192 S1x8192x3 S1x8192x3 where
  lhsContracting := [2]
  rhsContracting := [1]
  lhsNonContracting := [1]
  rhsNonContracting := [2]
  lhsBatch := [0]
  rhsBatch := [0]
  wf := dot_S1x8192x8192_S1x8192x3_S1x8192x3_2_1_1_2_0_0_wf

class Facts : Prop extends Facts₀ where

variable [Facts]
-- ==== Proof.KB.Runs.lean ====
/-
  What the three runs of the kernel's body share.

  The kernel is launched on a 16 × 16 grid; point t has row tile t / 16 and column tile t % 16. Windows 0 and 1 are the
  row tile of the positions and of the momenta, windows 2 and 3 the column tile of the same two arrays (so each array
  is behind two windows), windows 4 and 5 the two results' row tile. The body zeroes its three running sums in scratch
  when the column tile is 0, adds the tile's contribution at every point, and stores the two result blocks when the
  column tile is 15; elsewhere the result windows are idle. So the body runs in one of three ways: at column tile 0,
  at column tiles 1 to 14, at column tile 15.
-/
import proofs.«106366_j31361851195747_1_alg».proof.Proof.Gen.Kernel.Launch
import proofs.«106366_j31361851195747_1_alg».proof.Proof.Gen.Kernel.Skeleton
import proofs.«106366_j31361851195747_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- The contents of core c's buffer b when the region is entered: the launch contents (no host operation runs before). -/
abbrev V (c : Dev nD) (b : Ref sig .tc) : Buf (Elt F) ((c : Thread nD τ).loc b) := m ((c.tc : Thread nD τ).loc b)

/-- Window w's block at point t, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not: where it is not fetched the
    block index has not moved and the body left the block in place. One statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions, decided over the grid -/

/-- "The column tile is 0", as the body computes it from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- "The column tile is 15", as the body computes it. -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- The four input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off the last column tile the two result windows are idle and not written back; at it they are live. -/
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called with -/

/-- Each window's current staging memref at point t, as the pipeline passes it, and its wholeness. -/
abbrev ms0_0 (t : Fin cfg0.N) : Memref sig .tc .vmem S1x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x3 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x3 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x3 .f32 := win0_5.stage (cfg0.slots t 5)
abbrev hs0_5 (t : Fin cfg0.N) : (ms0_5 t).IsWhole := hstage0_5 ((cfg0.slots t 5).cast nbuf0_5)

/-- The three scratch buffers that carry the running sums, as whole memrefs, and as views through which their contents
    are stated. -/
abbrev scM0_0 : Memref sig .tc .vmem S512x1 .f32 := Memref.whole cc0_scratch0
abbrev scM0_1 : Memref sig .tc .vmem S512x3 .f32 := Memref.whole cc0_scratch1
abbrev scM0_2 : Memref sig .tc .vmem S512x3 .f32 := Memref.whole cc0_scratch2
abbrev VS0_0 : View sig .tc .vmem S512x1 .f32 := scM0_0.view
abbrev VS0_1 : View sig .tc .vmem S512x3 .f32 := scM0_1.view
abbrev VS0_2 : View sig .tc .vmem S512x3 .f32 := scM0_2.view
/-- One staging buffer of each result window, through which its contents are stated. -/
abbrev VO0_4 : View sig .tc .vmem S1x512x3 .f32 := (Memref.whole cc0_stg4_0 : Memref sig .tc .vmem S1x512x3 .f32).view
abbrev VO0_5 : View sig .tc .vmem S1x512x3 .f32 := (Memref.whole cc0_stg5_0 : Memref sig .tc .vmem S1x512x3 .f32).view

/-- The core's scoped buffers that are no staging buffer are the three scratch buffers, each owned at some contents. -/
theorem scopedRest_owns (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d) ∗ (∃ d, owns (c : Thread nD τ) scM0_2 fullShare d)) := by
  rw [scopedRest0_eq]; simp only [scM0_0, scM0_1, scM0_2, owns_whole]; try rfl

end Cert.Kernel.Fr

end
-- ==== Proof.KB.RunA.lean ====
/-
  The body's run at column tile 0: the three running sums are set to zero, the tile's contribution is added, and the
  two result windows are left untouched.
-/
import proofs.«106366_j31361851195747_1_alg».proof.Proof.KB.Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case: on whole staging memrefs holding the four input blocks x0 … x3 (row positions, row
    momenta, column positions, column momenta) it runs to the end, hands the inputs back as they were, and leaves in
    each buffer it stores into the pieces listed here (last store first); the lists are found by the run itself. -/
noncomputable def kernelRun0_A (c : Dev nD) (i : grid0.Coords) (arg2 : Memref sig .tc .vmem S1x512x3 .f32) (harg2 : arg2.IsWhole) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x3 .f32) (harg7 : arg7.IsWhole) (arg8 : Memref sig .tc .vmem S512x1 .f32) (harg8 : arg8.IsWhole) (arg9 : Memref sig .tc .vmem S512x3 .f32) (harg9 : arg9.IsWhole) (arg10 : Memref sig .tc .vmem S512x3 .f32) (harg10 : arg10.IsWhole) (hc0 : cond0_0 i) (hc1 : ¬cond0_1 i)
    (x0 x1 x2 x3 : Vec F S1x512x3 .f32) :
    Σ' (LS0 : List (View.Piece (Elt F) S512x1 .f32)) (LS1 : List (View.Piece (Elt F) S512x3 .f32)), { LS2 : List (View.Piece (Elt F) S512x3 .f32) //
      ∀ (xi4 xi5 : Vec F S1x512x3 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__lddmm_kernel i arg2 harg2 arg3 harg3 arg4 harg4 arg5 harg5 arg6 harg6 arg7 harg7 arg8 harg8 arg9 harg9 arg10 harg10) K } := by
  refine ⟨?_, ?_, ?_, fun xi4 xi5 E K => ?run⟩
  case run =>
    simp only [cc0__lddmm_kernel_eq_skeleton]; unfold cc0__lddmm_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Fr

end
-- ==== Proof.KB.RunB.lean ====
/-
  The body's run at column tiles 1 to 14: the tile's contribution is added to the running sums the point before
  left, and the two result windows are left untouched.
-/
import proofs.«106366_j31361851195747_1_alg».proof.Proof.KB.RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case: on whole staging memrefs holding the four input blocks x0 … x3 (row positions, row
    momenta, column positions, column momenta) it runs to the end, hands the inputs back as they were, and leaves in
    each buffer it stores into the pieces listed here (last store first); the lists are found by the run itself. -/
noncomputable def kernelRun0_B (c : Dev nD) (i : grid0.Coords) (arg2 : Memref sig .tc .vmem S1x512x3 .f32) (harg2 : arg2.IsWhole) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x3 .f32) (harg7 : arg7.IsWhole) (arg8 : Memref sig .tc .vmem S512x1 .f32) (harg8 : arg8.IsWhole) (arg9 : Memref sig .tc .vmem S512x3 .f32) (harg9 : arg9.IsWhole) (arg10 : Memref sig .tc .vmem S512x3 .f32) (harg10 : arg10.IsWhole) (hc0 : ¬cond0_0 i) (hc1 : ¬cond0_1 i)
    (x0 x1 x2 x3 : Vec F S1x512x3 .f32)
    (xs0 : Vec F S512x1 .f32) (xs1 xs2 : Vec F S512x3 .f32) :
    Σ' (LS0 : List (View.Piece (Elt F) S512x1 .f32)) (LS1 : List (View.Piece (Elt F) S512x3 .f32)), { LS2 : List (View.Piece (Elt F) S512x3 .f32) //
      ∀ (xi4 xi5 : Vec F S1x512x3 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__lddmm_kernel i arg2 harg2 arg3 harg3 arg4 harg4 arg5 harg5 arg6 harg6 arg7 harg7 arg8 harg8 arg9 harg9 arg10 harg10) K } := by
  refine ⟨?_, ?_, ?_, fun xi4 xi5 E K => ?run⟩
  case run =>
    simp only [cc0__lddmm_kernel_eq_skeleton]; unfold cc0__lddmm_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Fr

end
-- ==== Proof.KB.RunC.lean ====
/-
  The body's run at column tile 15: the tile's contribution is added to the running sums, and the two result blocks
  are stored from the finished sums.
-/
import proofs.«106366_j31361851195747_1_alg».proof.Proof.KB.RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case: on whole staging memrefs holding the four input blocks x0 … x3 (row positions, row
    momenta, column positions, column momenta) it runs to the end, hands the inputs back as they were, and leaves in
    each buffer it stores into the pieces listed here (last store first); the lists are found by the run itself. -/
noncomputable def kernelRun0_C (c : Dev nD) (i : grid0.Coords) (arg2 : Memref sig .tc .vmem S1x512x3 .f32) (harg2 : arg2.IsWhole) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x3 .f32) (harg7 : arg7.IsWhole) (arg8 : Memref sig .tc .vmem S512x1 .f32) (harg8 : arg8.IsWhole) (arg9 : Memref sig .tc .vmem S512x3 .f32) (harg9 : arg9.IsWhole) (arg10 : Memref sig .tc .vmem S512x3 .f32) (harg10 : arg10.IsWhole) (hc0 : ¬cond0_0 i) (hc1 : cond0_1 i)
    (x0 x1 x2 x3 : Vec F S1x512x3 .f32)
    (xs0 : Vec F S512x1 .f32) (xs1 xs2 : Vec F S512x3 .f32) :
    Σ' (L4 : List (View.Piece (Elt F) S1x512x3 .f32)) (L5 : List (View.Piece (Elt F) S1x512x3 .f32)) (LS0 : List (View.Piece (Elt F) S512x1 .f32)) (LS1 : List (View.Piece (Elt F) S512x3 .f32)), { LS2 : List (View.Piece (Elt F) S512x3 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__lddmm_kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__lddmm_kernel_eq_skeleton]; unfold cc0__lddmm_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    isplitl [HS1]; · iexists _; iexact HS1
    iexists _; iexact HS2

end Cert.Kernel.Fr

end
-- ==== Proof.KB.Frame.lean ====
/-
  What the kernel's three running sums and its two result blocks hold after every grid point, the proof data of the
  pipeline, and the body's obligation at a generic point.

  The two argument arrays are each behind two input windows (the row tile and the column tile), so each array is held
  in two halves, one per window.
-/
import proofs.«106366_j31361851195747_1_alg».proof.Proof.KB.RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three running sums as a triple. -/
abbrev Scr (F : FTy → Type) [FloatOps F] : Type := Vec F S512x1 .f32 × Vec F S512x3 .f32 × Vec F S512x3 .f32
/-- What the body has left after a point: the two result blocks' staging contents, then the running sums. -/
abbrev St (F : FTy → Type) [FloatOps F] : Type := Vec F S1x512x3 .f32 × Vec F S1x512x3 .f32 × Scr F

/-! ## What each case leaves, read back from the pieces its run found -/

section Cases
variable (c : Dev nD) (i : grid0.Coords) (arg2 : Memref sig .tc .vmem S1x512x3 .f32) (harg2 : arg2.IsWhole) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x3 .f32) (harg7 : arg7.IsWhole) (arg8 : Memref sig .tc .vmem S512x1 .f32) (harg8 : arg8.IsWhole) (arg9 : Memref sig .tc .vmem S512x3 .f32) (harg9 : arg9.IsWhole) (arg10 : Memref sig .tc .vmem S512x3 .f32) (harg10 : arg10.IsWhole)
variable (x0 x1 x2 x3 : Vec F S1x512x3 .f32) (xs0 : Vec F S512x1 .f32) (xs1 xs2 : Vec F S512x3 .f32)

/-- Column tile 0: the running sums after the point. -/
def scrA (hc0 : cond0_0 i) (hc1 : ¬cond0_1 i) : Scr F :=
  (VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3).1),
   VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1 x2 x3).2.1),
   VS0_2.read (Elt F) (VS0_2.writes (Elt F) VS0_2.junk (kernelRun0_A c i arg2 harg2 arg3 harg3 arg4 harg4 arg5 harg5 arg6 harg6 arg7 harg7 arg8 harg8 arg9 harg9 arg10 harg10 hc0 hc1 x0 x1 x2 x3).2.2.1))
/-- Column tiles 1 to 14: the running sums after the point, over what the point before left. -/
def scrB (hc0 : ¬cond0_0 i) (hc1 : ¬cond0_1 i) : Scr F :=
  (VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 xs0 xs1 xs2).1),
   VS0_1.read (Elt F) (VS0_1.writes (Elt F) VS0_1.junk (kernelRun0_B c i arg2 harg2 arg3 harg3 arg4 harg4 arg5 harg5 arg6 harg6 arg7 harg7 arg8 harg8 arg9 harg9 arg10 harg10 hc0 hc1 x0 x1 x2 x3 xs0 xs1 xs2).2.1),
   VS0_2.read (Elt F) (VS0_2.writes (Elt F) VS0_2.junk (kernelRun0_B c i arg2 harg2 arg3 harg3 arg4 harg4 arg5 harg5 arg6 harg6 arg7 harg7 arg8 harg8 arg9 harg9 arg10 harg10 hc0 hc1 x0 x1 x2 x3 xs0 xs1 xs2).2.2.1))
/-- Column tile 15: the two result blocks and the running sums after the point. -/
def stC (hc0 : ¬cond0_0 i) (hc1 : cond0_1 i) : St F :=
  (VO0_4.read (Elt F) (VO0_4.writes (Elt F) VO0_4.junk (kernelRun0_C c i arg2 harg2 arg3 harg3 arg4 harg4 arg5 harg5 arg6 harg6 arg7 harg7 arg8 harg8 arg9 harg9 arg10 harg10 hc0 hc1 x0 x1 x2 x3 xs0 xs1 xs2).1),
   VO0_5.read (Elt F) (VO0_5.writes (Elt F) VO0_5.junk (kernelRun0_C c i arg2 harg2 arg3 harg3 arg4 harg4 arg5 harg5 arg6 harg6 arg7 harg7 arg8 harg8 arg9 harg9 arg10 harg10 hc0 hc1 x0 x1 x2 x3 xs0 xs1 xs2).2.1),
   VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 xs0 xs1 xs2).2.2.1),
   VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 x0 x1 x2 x3 xs0 xs1 xs2).2.2.2.1),
   VS0_2.read (Elt F) (VS0_2.writes (Elt F) VS0_2.junk (kernelRun0_C c i arg2 harg2 arg3 harg3 arg4 harg4 arg5 harg5 arg6 harg6 arg7 harg7 arg8 harg8 arg9 harg9 arg10 harg10 hc0 hc1 x0 x1 x2 x3 xs0 xs1 xs2).2.2.2.2.1))

/-- In every case the pieces stored into a buffer tile it, so they cover it. -/
theorem scoverA_0 (hc0 : cond0_0 i) (hc1 : ¬cond0_1 i) (y : S512x1.Idx) : ∃ pc ∈ (kernelRun0_A c i arg2 harg2 arg3 harg3 arg4 harg4 arg5 harg5 arg6 harg6 arg7 harg7 arg8 harg8 arg9 harg9 arg10 harg10 hc0 hc1 x0 x1 x2 x3).1, y ∈ pc.1.set :=
  View.cover_of_tiledL _ S512x1.size (by sl_kernel_rfl) y
theorem scoverA_1 (hc0 : cond0_0 i) (hc1 : ¬cond0_1 i) (y : S512x3.Idx) : ∃ pc ∈ (kernelRun0_A c i arg2 harg2 arg3 harg3 arg4 harg4 arg5 harg5 arg6 harg6 arg7 harg7 arg8 harg8 arg9 harg9 arg10 harg10 hc0 hc1 x0 x1 x2 x3).2.1, y ∈ pc.1.set :=
  View.cover_of_tiledL _ S512x3.size (by sl_kernel_rfl) y
theorem scoverA_2 (hc0 : cond0_0 i) (hc1 : ¬cond0_1 i) (y : S512x3.Idx) : ∃ pc ∈ (kernelRun0_A c i arg2 harg2 arg3 harg3 arg4 harg4 arg5 harg5 arg6 harg6 arg7 harg7 arg8 harg8 arg9 harg9 arg10 harg10 hc0 hc1 x0 x1 x2 x3).2.2.1, y ∈ pc.1.set :=
  View.cover_of_tiledL _ S512x3.size (by sl_kernel_rfl) y
theorem scoverB_0 (hc0 : ¬cond0_0 i) (hc1 : ¬cond0_1 i) (y : S512x1.Idx) : ∃ pc ∈ (kernelRun0_B c i arg2 harg2 arg3 harg3 arg4 harg4 arg5 harg5 arg6 harg6 arg7 harg7 arg8 harg8 arg9 harg9 arg10 harg10 hc0 hc1 x0 x1 x2 x3 xs0 xs1 xs2).1, y ∈ pc.1.set :=
  View.cover_of_tiledL _ S512x1.size (by sl_kernel_rfl) y
theorem scoverB_1 (hc0 : ¬cond0_0 i) (hc1 : ¬cond0_1 i) (y : S512x3.Idx) : ∃ pc ∈ (kernelRun0_B c i arg2 harg2 arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL _ S512x3.size (by sl_kernel_rfl) y
theorem scoverB_2 (hc0 : ¬cond0_0 i) (hc1 : ¬cond0_1 i) (y : S512x3.Idx) : ∃ pc ∈ (kernelRun0_B c i arg2 harg2 arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL _ S512x3.size (by sl_kernel_rfl) y
theorem coverC_4 (hc0 : ¬cond0_0 i) (hc1 : cond0_1 i) (y : S1x512x3.Idx) : ∃ pc ∈ (kernelRun0_C c i arg2 harg2 arg3 harg3 arg4 harg4 arg5 harg5 arg6 harg6 arg7 harg7 arg8 harg8 arg9 harg9 arg10 harg10 hc0 hc1 x0 x1 x2 x3 xs0 xs1 xs2).1, y ∈ pc.1.set :=
  View.cover_of_tiledL _ S1x512x3.size (by sl_kernel_rfl) y
theorem coverC_5 (hc0 : ¬cond0_0 i) (hc1 : cond0_1 i) (y : S1x512x3.Idx) : ∃ pc ∈ (kernelRun0_C c i arg2 harg2 arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL _ S1x512x3.size (by sl_kernel_rfl) y
theorem scoverC_0 (hc0 : ¬cond0_0 i) (hc1 : cond0_1 i) (y : S512x1.Idx) : ∃ pc ∈ (kernelRun0_C c i arg2 harg2 arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL _ S512x1.size (by sl_kernel_rfl) y
theorem scoverC_1 (hc0 : ¬cond0_0 i) (hc1 : cond0_1 i) (y : S512x3.Idx) : ∃ pc ∈ (kernelRun0_C c i arg2 harg2 arg3 harg3 arg4 harg4 arg5 harg5 arg6 harg6 arg7 harg7 arg8 harg8 arg9 harg9 arg10 harg10 hc0 hc1 x0 x1 x2 x3 xs0 xs1 xs2).2.2.2.1, y ∈ pc.1.set :=
  View.cover_of_tiledL _ S512x3.size (by sl_kernel_rfl) y
theorem scoverC_2 (hc0 : ¬cond0_0 i) (hc1 : cond0_1 i) (y : S512x3.Idx) : ∃ pc ∈ (kernelRun0_C c i arg2 harg2 arg3 harg3 arg4 harg4 arg5 harg5 arg6 harg6 arg7 harg7 arg8 harg8 arg9 harg9 arg10 harg10 hc0 hc1 x0 x1 x2 x3 xs0 xs1 xs2).2.2.2.2.1, y ∈ pc.1.set :=
  View.cover_of_tiledL _ S512x3.size (by sl_kernel_rfl) y

end Cases

/-! ## Point by point -/

/-- The three cases at a grid point t, on the point's staging memrefs and input blocks. -/
def scrA_at (c : Dev nD) (t : Fin cfg0.N) (h0 : t.val % 16 = 0) : Scr F :=
  scrA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) ((hcond0_0 t).mpr h0) (fun h => by have := (hcond0_1 t).mp h; omega)
def scrB_at (c : Dev nD) (t : Fin cfg0.N) (h0 : ¬t.val % 16 = 0) (h1 : ¬t.val % 16 = 15) (s : Scr F) : Scr F :=
  scrB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) s.1 s.2.1 s.2.2 (fun h => h0 ((hcond0_0 t).mp h)) (fun h => h1 ((hcond0_1 t).mp h))
def stC_at (c : Dev nD) (t : Fin cfg0.N) (h0 : ¬t.val % 16 = 0) (h1 : t.val % 16 = 15) (s : Scr F) : St F :=
  stC c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) s.1 s.2.1 s.2.2 (fun h => h0 ((hcond0_0 t).mp h)) ((hcond0_1 t).mpr h1)

/-- A result window's staging contents where nothing consults them (the window idle and not written back). -/
def idle4 : Vec F S1x512x3 .f32 := VO0_4.read (Elt F) VO0_4.junk
def idle5 : Vec F S1x512x3 .f32 := VO0_5.read (Elt F) VO0_5.junk

/-- THE ACCUMULATION: what the body has left after the point at position n — the case the column tile selects, the
    running sums carried from the point before except at column tile 0. -/
def outsAt0 (c : Dev nD) : (n : ℕ) → n < cfg0.N → St F
  | 0, hn => (idle4, idle5, scrA_at m c ⟨0, hn⟩ (Nat.zero_mod _))
  | n + 1, hn =>
    if h0 : (n + 1) % 16 = 0 then (idle4, idle5, scrA_at m c ⟨n + 1, hn⟩ h0)
    else if h1 : (n + 1) % 16 = 15 then stC_at m c ⟨n + 1, hn⟩ h0 h1 (outsAt0 c n (Nat.lt_of_succ_lt hn)).2.2
    else (idle4, idle5, scrB_at m c ⟨n + 1, hn⟩ h0 h1 (outsAt0 c n (Nat.lt_of_succ_lt hn)).2.2)

theorem outsAt0_A (c : Dev nD) (t : Fin cfg0.N) (h0 : t.val % 16 = 0) :
    outsAt0 m c t.val t.isLt = (idle4, idle5, scrA_at m c t h0) := by
  obtain ⟨n, hn⟩ := t
  cases n with
  | zero => rfl
  | succ n => exact (dif_pos h0).trans rfl
theorem outsAt0_B (c : Dev nD) (t : Fin cfg0.N) (h0 : ¬t.val % 16 = 0) (h1 : ¬t.val % 16 = 15) :
    outsAt0 m c t.val t.isLt = (idle4, idle5, scrB_at m c t h0 h1 (outsAt0 m c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h1).trans rfl)
theorem outsAt0_C (c : Dev nD) (t : Fin cfg0.N) (h0 : ¬t.val % 16 = 0) (h1 : t.val % 16 = 15) :
    outsAt0 m c t.val t.isLt = stC_at m c t h0 h1 (outsAt0 m c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-- The region's invariant before the point at position n: before the first point the three scratch buffers at anything;
    afterwards at the running sums the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0_0 fullShare (outsAt0 m c n hn).2.2.1
      ∗ owns (c : Thread nD τ) scM0_1 fullShare (outsAt0 m c n hn).2.2.2.1 ∗ owns (c : Thread nD τ) scM0_2 fullShare (outsAt0 m c n hn).2.2.2.2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS m c (n + 1) hn = iprop(owns (c : Thread nD τ) scM0_0 fullShare (outsAt0 m c n hn).2.2.1
      ∗ owns (c : Thread nD τ) scM0_1 fullShare (outsAt0 m c n hn).2.2.2.1 ∗ owns (c : Thread nD τ) scM0_2 fullShare (outsAt0 m c n hn).2.2.2.2) := rfl
theorem PhiS_pos (c : Dev nD) (n : ℕ) (h : n ≤ cfg0.N) (hz : n ≠ 0) :
    PhiS m c n h = iprop(owns (c : Thread nD τ) scM0_0 fullShare (outsAt0 m c (n - 1) (by omega)).2.2.1
      ∗ owns (c : Thread nD τ) scM0_1 fullShare (outsAt0 m c (n - 1) (by omega)).2.2.2.1 ∗ owns (c : Thread nD τ) scM0_2 fullShare (outsAt0 m c (n - 1) (by omega)).2.2.2.2) := by
  cases n with
  | zero => exact absurd rfl hz
  | succ n => rfl

/-! ## The pipeline's proof data -/

/-- The proof data on core c: the arrays as the region finds them; after the body at point t each input's buffer at its
    block and each result's at what the accumulation says; the invariant above; nothing owed; each argument array held
    in two halves, the left by its row-tile window and the right by its column-tile window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 8000000 in
/-- The body at any point. The input buffers hold their blocks; the column tile says which of the three runs applies;
    the invariant hands the run the scratch buffers at the running sums the point before left (at anything before the
    first point) and takes them back at this point's; the result windows are handed back untouched off the last column
    tile and at the stored blocks on it; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 16 = 0
  · have h1 : ¬t.val % 16 = 15 := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [Dat.leavesExact_idle (dats m 0 c) 4 t (idleAt0_4 t (fun h => h1 ((hcond0_1 t).mp h))) (noFlush0_4 t (fun h => h1 ((hcond0_1 t).mp h)))]
    rw [Dat.leavesExact_idle (dats m 0 c) 5 t (idleAt0_5 t (fun h => h1 ((hcond0_1 t).mp h))) (noFlush0_5 t (fun h => h1 ((hcond0_1 t).mp h)))]
    rw [outsAt0_A m c t h0]
    unfold scrA_at scrA; (try dsimp only)
    by_cases hz : t.val = 0
    · rw [PhiS_castSucc m c t, PhiS_zero m c _ _ hz, scopedRest_owns]
      iintro ⟨⟨HS0, HS1, HS2⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t)).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2]
      · isplitl [HS0]
        · unfold owns; iexists _; isplitr
          swap; · iexact HS0
          ipureintro; exact View.read_writes_of_cover _ _ _ _ _ (scoverA_0 c _ _ _ _ _ _ _ _ _ _ _ _ _ _ _ _ _ _ _ _ _ _ _ _ _)
        isplitl [HS1]
        · unfold owns; iexists _; isplitr
          swap; · iexact HS1
          ipureintro; exact View.read_writes_of_cover _ _ _ _ _ (scoverA_1 c _ _ _ _ _ _ _ _ _ _ _ _ _ _ _ _ _ _ _ _ _ _ _ _ _)
        unfold owns; iexists _; isplitr
        swap; · iexact HS2
        ipureintro; exact View.read_writes_of_cover _ _ _ _ _ (scoverA_2 c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS_castSucc m c t, PhiS_pos m c _ _ hz]
      iintro ⟨⟨HS0, HS1, HS2⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t)).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, ⟨%es0, HS0⟩, ⟨%es1, HS1⟩, ⟨%es2, HS2⟩⟩
      isplitl [HS0 HS1 HS2]
      · isplitl [HS0]
        · unfold owns; iexists _; isplitr
          swap; · iexact HS0
          ipureintro; exact View.read_writes_of_cover _ _ _ _ _ (scoverA_0 c _ _ _ _ _ _ _ _ _ _ _ _ _ _ _ _ _ _ _ _ _ _ _ _ _)
        isplitl [HS1]
        · unfold owns; iexists _; isplitr
          swap; · iexact HS1
          ipureintro; exact View.read_writes_of_cover _ _ _ _ _ (scoverA_1 c _ _ _ _ _ _ _ _ _ _ _ _ _ _ _ _ _ _ _ _ _ _ _ _ _)
        unfold owns; iexists _; isplitr
        swap; · iexact HS2
        ipureintro; exact View.read_writes_of_cover _ _ _ _ _ (scoverA_2 c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun e => h0 (by rw [e])
    by_cases h1 : t.val % 16 = 15
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [show (dats m 0 c).leavesExact 5 t = owns (c : Thread nD τ) (ms0_5 t) fullShare ((dats m 0 c).after 5 t) from by
        unfold Dat.leavesExact; rw [liveAt0_5 t ((hcond0_1 t).mpr h1)], after0_5]
      rw [outsAt0_C m c t h0 h1]
      unfold stC_at stC; (try dsimp only)
      rw [PhiS_castSucc m c t, PhiS_pos m c _ _ hz]
      iintro ⟨⟨HS0, HS1, HS2⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) _ _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      isplitl [HS2]; · iexact HS2
      iintro ⟨H0, H1, H2, H3, ⟨%e4, H4⟩, ⟨%e5, H5⟩, ⟨%es0, HS0⟩, ⟨%es1, HS1⟩, ⟨%es2, HS2⟩⟩
      isplitl [HS0 HS1 HS2]
      · isplitl [HS0]
        · unfold owns; iexists _; isplitr
          swap; · iexact HS0
          ipureintro; exact View.read_writes_of_cover _ _ _ _ _ (scoverC_0 c _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scoverC_1 c _ _ _ _ _ _ _ _ _ _ _ _ _ _ _ _ _ _ _ _ _ _ _ _ _ _ _ _)
        unfold owns; iexists _; isplitr
        swap; · iexact HS2
        ipureintro; exact View.read_writes_of_cover _ _ _ _ _ (scoverC_2 c _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverC_4 c _ _ _ _ _ _ _ _ _ _ _ _ _ _ _ _ _ _ _ _ _ _ _ _ _ _ _ _)
      unfold owns; iexists _; isplitr
      swap; · iexact H5
      ipureintro; exact View.read_writes_of_cover _ _ _ _ _ (coverC_5 c _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [Dat.leavesExact_idle (dats m 0 c) 5 t (idleAt0_5 t (fun h => h1 ((hcond0_1 t).mp h))) (noFlush0_5 t (fun h => h1 ((hcond0_1 t).mp h)))]
      rw [outsAt0_B m c t h0 h1]
      unfold scrB_at scrB; (try dsimp only)
      rw [PhiS_castSucc m c t, PhiS_pos m c _ _ hz]
      iintro ⟨⟨HS0, HS1, HS2⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2]
      · isplitl [HS0]
        · unfold owns; iexists _; isplitr
          swap; · iexact HS0
          ipureintro; exact View.read_writes_of_cover _ _ _ _ _ (scoverB_0 c _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scoverB_1 c _ _ _ _ _ _ _ _ _ _ _ _ _ _ _ _ _ _ _ _ _ _ _ _ _ _ _ _)
        unfold owns; iexists _; isplitr
        swap; · iexact HS2
        ipureintro; exact View.read_writes_of_cover _ _ _ _ _ (scoverB_2 c _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Fr

end
-- ==== Proof.KB.Launch.lean ====
/-
  The kernel's launch: the region invariant at its two ends, the two argument arrays split between the windows that
  share them, the run, and the frame.
-/
import proofs.«106366_j31361851195747_1_alg».proof.Proof.KB.Frame

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch -/

/-- @main is the region alone. -/
theorem main_eq (c : Dev nD) : main (F := F) c = (.op (.customCall (Pipeline.entry 0) ()) fun _ => .ret ⟨⟩) := rfl

/-- Before the first point the invariant is the scratch buffers at anything, as the launch hands them over, -/
theorem hin (c : Dev nD) :
    iprop((BI.emp : sProp 𝕄) ∗ Pipeline.scopedRest (Ix := Unit) (Name := ℕ) (U := UR sig nD τ) (Lvl := ℕ) (Val := Elt F) spec0 c) ⊢ (dats m 0 c).Φ 0 := by
  rw [show (dats m 0 c).Φ 0 = PhiS m c 0 (Nat.zero_le _) from rfl, PhiS_zero m c 0 _ rfl]
  iintro ⟨-, H⟩; iexact H

/-- After any point but the first the invariant gives the scratch buffers back, their contents forgotten; -/
theorem Phi_out (c : Dev nD) (t : Fin (cfg0.N + 1)) (ht : t.val ≠ 0) :
    (dats m 0 c).Φ t
      ⊢ iprop((BI.emp : sProp 𝕄) ∗ Pipeline.scopedRest (Ix := Unit) (Name := ℕ) (U := UR sig nD τ) (Lvl := ℕ) (Val := Elt F) spec0 c) := by
  rw [show (dats m 0 c).Φ t = PhiS m c t.val (Nat.le_of_lt_succ t.isLt) from rfl, PhiS_pos m c _ _ ht, scopedRest_owns]
  iintro ⟨HS0, HS1, HS2⟩
  isplitr [HS0 HS1 HS2]; · iempintro
  isplitl [HS0]; · iexists _; iexact HS0
  isplitl [HS1]; · iexists _; iexact HS1
  iexists _; iexact HS2

/-- so after the last point. -/
theorem hout (c : Dev nD) :
    (dats m 0 c).Φ (Fin.last cfg0.N)
      ⊢ iprop((BI.emp : sProp 𝕄) ∗ Pipeline.scopedRest (Ix := Unit) (Name := ℕ) (U := UR sig nD τ) (Lvl := ℕ) (Val := Elt F) spec0 c) :=
  Phi_out m c _ (by rw [Fin.val_last]; have : cfg0.N = 256 := N_0; omega)

set_option maxHeartbeats 4000000 in
/-- The distinct buffers behind the six windows' arrays: the positions, the momenta and the two results. -/
theorem arrRefs_eq : Finset.univ.image (Pipeline.arrRef spec0) = [main_arg1, main_arg0, main_v0_0, main_v0_1].toFinset := by decide

/-- The pipeline's arrays, every array a whole buffer, window by window at its share. -/
theorem arrays_eq_shares (c : Dev nD) (G : (w : Fin cfg0.W) → Buf (Elt F) ((cfg0.win w).arr.view.loc (c.tc : Thread nD τ))) :
    ((dats m 0 c).arrays G : sProp 𝕄)
      = bigSep Finset.univ fun w => (((c.tc : Thread nD τ).loc (Pipeline.arrRef spec0 w)) ↦{(dats m 0 c).share w} G w : sProp 𝕄) := by
  unfold Dat.arrays
  exact bigSep_congr fun w _ => by rw [(arr_whole0 w).set_eq_univ]

/-- The launch's holdings of the arrays, one buffer at a time. -/
theorem arrBufs_eq (c : Dev nD) :
    (Pipeline.arrBufs (Ix := Unit) (Name := ℕ) (U := UR sig nD τ) (Lvl := ℕ) spec0 c (V m c) : sProp 𝕄)
      = iprop((((c.tc : Thread nD τ).loc main_arg1) ↦{fullShare} V m c main_arg1) ∗ (((c.tc : Thread nD τ).loc main_arg0) ↦{fullShare} V m c main_arg0)
          ∗ (((c.tc : Thread nD τ).loc main_v0_0) ↦{fullShare} V m c main_v0_0) ∗ (((c.tc : Thread nD τ).loc main_v0_1) ↦{fullShare} V m c main_v0_1)) := by
  unfold Pipeline.arrBufs
  exact bigSep_eq_bigSepL_of_eq [main_arg1, main_arg0, main_v0_0, main_v0_1] arrRefs_eq (by decide) _

/-- The launch's holdings become the pipeline's: each argument array, held whole, is split into its two halves, one
    for the row-tile window and one for the column-tile window; the two results are held whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_eq_shares, arrBufs_eq, bigSep_W0]
  iintro ⟨Hx, Hp, Ho4, Ho5⟩
  ihave Hx2 := (pointsTo_share (PosShare.mem_left_op_right fullShare)).1 $$ Hx
  icases Hx2 with ⟨Hxl, Hxr⟩
  ihave Hp2 := (pointsTo_share (PosShare.mem_left_op_right fullShare)).1 $$ Hp
  icases Hp2 with ⟨Hpl, Hpr⟩
  isplitl [Hxl]; · iexact Hxl
  isplitl [Hpl]; · iexact Hpl
  isplitl [Hxr]; · iexact Hxr
  isplitl [Hpr]; · iexact Hpr
  isplitl [Ho4]; · iexact Ho4
  iexact Ho5

set_option backward.isDefEq.respectTransparency.types false in
/-- From any memory with zero counters every weakly fair execution of @main terminates, and in every final state each
    window's array holds what the library computes from the proof data: an input its entry contents, a result those
    overwritten by the blocks written back. -/
theorem run_main : θ_run defs (onTc (τ := τ) (main (F := F))) ⟨m, fun _ => 0, ρ⟩
    (fun r => ∀ c : Dev nD, ∀ w : Fin cfg0.W, r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := Pipeline.hmain_region cfgs 0 defs₀ Variants.none m main main_eq)
    (hsplit := hsplit m)
    (X := fun _ => BI.emp) (Y := fun _ => BI.emp) (Z := fun _ => BI.emp)
    (hX := fun c => by rw [unscopedRest0_eq]; iintro -; isplitl [] <;> iempintro)
    (hin := hin m) (hout := hout m)
    (QY := fun _ _ => True)
    (hY := fun c s' => by
      iintro ⟨-, -, HSI⟩; imodintro
      isplitr [HSI]; · ipureintro; trivial
      iexact HSI)
    (hQ := fun s h c w => (h c).1 w)

/-- info: 'Cert.Kernel.Fr.run_main' depends on axioms: [propext, Classical.choice, Quot.sound] -/
#guard_msgs in #print axioms run_main

/-- THE FRAME: the program runs to the end without a fault and its two argument arrays end unchanged — each is behind
    input windows only, and an input window's array is never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c 1).trans (((dats m 0 c).arrAt_in 1 rfl _).trans (A_eq m c 1)),
     (h c 0).trans (((dats m 0 c).arrAt_in 0 rfl _).trans (A_eq m c 0))⟩) (run_main m ρ)

end Cert.Kernel.Fr

end
-- ==== Proof.KI.Runs.lean ====
/-
  What the three runs of the kernel's body share.

  The kernel is launched on a 16 × 16 grid; point t has row tile t / 16 and column tile t % 16. Windows 0 and 1 are the
  row tile of the positions and of the momenta, windows 2 and 3 the column tile of the same two arrays (so each array
  is behind two windows), windows 4 and 5 the two results' row tile. The body zeroes its three running sums in scratch
  when the column tile is 0, adds the tile's contribution at every point, and stores the two result blocks when the
  column tile is 15; elsewhere the result windows are idle. So the body runs in one of three ways: at column tile 0,
  at column tiles 1 to 14, at column tile 15.
-/
import proofs.«106366_j31361851195747_1_alg».proof.Proof.Gen.KernelIdeal.Launch
import proofs.«106366_j31361851195747_1_alg».proof.Proof.Gen.KernelIdeal.Skeleton
import proofs.«106366_j31361851195747_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- The contents of core c's buffer b when the region is entered: the launch contents (no host operation runs before). -/
abbrev V (c : Dev nD) (b : Ref sig .tc) : Buf (Elt F) ((c : Thread nD τ).loc b) := m ((c.tc : Thread nD τ).loc b)

/-- Window w's block at point t, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not: where it is not fetched the
    block index has not moved and the body left the block in place. One statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions, decided over the grid -/

/-- "The column tile is 0", as the body computes it from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- "The column tile is 15", as the body computes it. -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- The four input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off the last column tile the two result windows are idle and not written back; at it they are live. -/
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called with -/

/-- Each window's current staging memref at point t, as the pipeline passes it, and its wholeness. -/
abbrev ms0_0 (t : Fin cfg0.N) : Memref sig .tc .vmem S1x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x3 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x3 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x3 .f32 := win0_5.stage (cfg0.slots t 5)
abbrev hs0_5 (t : Fin cfg0.N) : (ms0_5 t).IsWhole := hstage0_5 ((cfg0.slots t 5).cast nbuf0_5)

/-- The three scratch buffers that carry the running sums, as whole memrefs, and as views through which their contents
    are stated. -/
abbrev scM0_0 : Memref sig .tc .vmem S512x1 .f32 := Memref.whole cc0_scratch0
abbrev scM0_1 : Memref sig .tc .vmem S512x3 .f32 := Memref.whole cc0_scratch1
abbrev scM0_2 : Memref sig .tc .vmem S512x3 .f32 := Memref.whole cc0_scratch2
abbrev VS0_0 : View sig .tc .vmem S512x1 .f32 := scM0_0.view
abbrev VS0_1 : View sig .tc .vmem S512x3 .f32 := scM0_1.view
abbrev VS0_2 : View sig .tc .vmem S512x3 .f32 := scM0_2.view
/-- One staging buffer of each result window, through which its contents are stated. -/
abbrev VO0_4 : View sig .tc .vmem S1x512x3 .f32 := (Memref.whole cc0_stg4_0 : Memref sig .tc .vmem S1x512x3 .f32).view
abbrev VO0_5 : View sig .tc .vmem S1x512x3 .f32 := (Memref.whole cc0_stg5_0 : Memref sig .tc .vmem S1x512x3 .f32).view

/-- The core's scoped buffers that are no staging buffer are the three scratch buffers, each owned at some contents. -/
theorem scopedRest_owns (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d) ∗ (∃ d, owns (c : Thread nD τ) scM0_2 fullShare d)) := by
  rw [scopedRest0_eq]; simp only [scM0_0, scM0_1, scM0_2, owns_whole]; try rfl

end Cert.KernelIdeal.Fr

end
-- ==== Proof.KI.RunA.lean ====
/-
  The body's run at column tile 0: the three running sums are set to zero, the tile's contribution is added, and the
  two result windows are left untouched.
-/
import proofs.«106366_j31361851195747_1_alg».proof.Proof.KI.Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case: on whole staging memrefs holding the four input blocks x0 … x3 (row positions, row
    momenta, column positions, column momenta) it runs to the end, hands the inputs back as they were, and leaves in
    each buffer it stores into the pieces listed here (last store first); the lists are found by the run itself. -/
noncomputable def kernelRun0_A (c : Dev nD) (i : grid0.Coords) (arg2 : Memref sig .tc .vmem S1x512x3 .f32) (harg2 : arg2.IsWhole) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x3 .f32) (harg7 : arg7.IsWhole) (arg8 : Memref sig .tc .vmem S512x1 .f32) (harg8 : arg8.IsWhole) (arg9 : Memref sig .tc .vmem S512x3 .f32) (harg9 : arg9.IsWhole) (arg10 : Memref sig .tc .vmem S512x3 .f32) (harg10 : arg10.IsWhole) (hc0 : cond0_0 i) (hc1 : ¬cond0_1 i)
    (x0 x1 x2 x3 : Vec F S1x512x3 .f32) :
    Σ' (LS0 : List (View.Piece (Elt F) S512x1 .f32)) (LS1 : List (View.Piece (Elt F) S512x3 .f32)), { LS2 : List (View.Piece (Elt F) S512x3 .f32) //
      ∀ (xi4 xi5 : Vec F S1x512x3 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__lddmm_kernel i arg2 harg2 arg3 harg3 arg4 harg4 arg5 harg5 arg6 harg6 arg7 harg7 arg8 harg8 arg9 harg9 arg10 harg10) K } := by
  refine ⟨?_, ?_, ?_, fun xi4 xi5 E K => ?run⟩
  case run =>
    simp only [cc0__lddmm_kernel_eq_skeleton]; unfold cc0__lddmm_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Fr

end
-- ==== Proof.KI.RunB.lean ====
/-
  The body's run at column tiles 1 to 14: the tile's contribution is added to the running sums the point before
  left, and the two result windows are left untouched.
-/
import proofs.«106366_j31361851195747_1_alg».proof.Proof.KI.RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case: on whole staging memrefs holding the four input blocks x0 … x3 (row positions, row
    momenta, column positions, column momenta) it runs to the end, hands the inputs back as they were, and leaves in
    each buffer it stores into the pieces listed here (last store first); the lists are found by the run itself. -/
noncomputable def kernelRun0_B (c : Dev nD) (i : grid0.Coords) (arg2 : Memref sig .tc .vmem S1x512x3 .f32) (harg2 : arg2.IsWhole) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x3 .f32) (harg7 : arg7.IsWhole) (arg8 : Memref sig .tc .vmem S512x1 .f32) (harg8 : arg8.IsWhole) (arg9 : Memref sig .tc .vmem S512x3 .f32) (harg9 : arg9.IsWhole) (arg10 : Memref sig .tc .vmem S512x3 .f32) (harg10 : arg10.IsWhole) (hc0 : ¬cond0_0 i) (hc1 : ¬cond0_1 i)
    (x0 x1 x2 x3 : Vec F S1x512x3 .f32)
    (xs0 : Vec F S512x1 .f32) (xs1 xs2 : Vec F S512x3 .f32) :
    Σ' (LS0 : List (View.Piece (Elt F) S512x1 .f32)) (LS1 : List (View.Piece (Elt F) S512x3 .f32)), { LS2 : List (View.Piece (Elt F) S512x3 .f32) //
      ∀ (xi4 xi5 : Vec F S1x512x3 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__lddmm_kernel i arg2 harg2 arg3 harg3 arg4 harg4 arg5 harg5 arg6 harg6 arg7 harg7 arg8 harg8 arg9 harg9 arg10 harg10) K } := by
  refine ⟨?_, ?_, ?_, fun xi4 xi5 E K => ?run⟩
  case run =>
    simp only [cc0__lddmm_kernel_eq_skeleton]; unfold cc0__lddmm_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Fr

end
-- ==== Proof.KI.RunC.lean ====
/-
  The body's run at column tile 15: the tile's contribution is added to the running sums, and the two result blocks
  are stored from the finished sums.
-/
import proofs.«106366_j31361851195747_1_alg».proof.Proof.KI.RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case: on whole staging memrefs holding the four input blocks x0 … x3 (row positions, row
    momenta, column positions, column momenta) it runs to the end, hands the inputs back as they were, and leaves in
    each buffer it stores into the pieces listed here (last store first); the lists are found by the run itself. -/
noncomputable def kernelRun0_C (c : Dev nD) (i : grid0.Coords) (arg2 : Memref sig .tc .vmem S1x512x3 .f32) (harg2 : arg2.IsWhole) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x3 .f32) (harg7 : arg7.IsWhole) (arg8 : Memref sig .tc .vmem S512x1 .f32) (harg8 : arg8.IsWhole) (arg9 : Memref sig .tc .vmem S512x3 .f32) (harg9 : arg9.IsWhole) (arg10 : Memref sig .tc .vmem S512x3 .f32) (harg10 : arg10.IsWhole) (hc0 : ¬cond0_0 i) (hc1 : cond0_1 i)
    (x0 x1 x2 x3 : Vec F S1x512x3 .f32)
    (xs0 : Vec F S512x1 .f32) (xs1 xs2 : Vec F S512x3 .f32) :
    Σ' (L4 : List (View.Piece (Elt F) S1x512x3 .f32)) (L5 : List (View.Piece (Elt F) S1x512x3 .f32)) (LS0 : List (View.Piece (Elt F) S512x1 .f32)) (LS1 : List (View.Piece (Elt F) S512x3 .f32)), { LS2 : List (View.Piece (Elt F) S512x3 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__lddmm_kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__lddmm_kernel_eq_skeleton]; unfold cc0__lddmm_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    isplitl [HS1]; · iexists _; iexact HS1
    iexists _; iexact HS2

end Cert.KernelIdeal.Fr

end
-- ==== Proof.KI.Frame.lean ====
/-
  What the kernel's three running sums and its two result blocks hold after every grid point, the proof data of the
  pipeline, and the body's obligation at a generic point.

  The two argument arrays are each behind two input windows (the row tile and the column tile), so each array is held
  in two halves, one per window.
-/
import proofs.«106366_j31361851195747_1_alg».proof.Proof.KI.RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three running sums as a triple. -/
abbrev Scr (F : FTy → Type) [FloatOps F] : Type := Vec F S512x1 .f32 × Vec F S512x3 .f32 × Vec F S512x3 .f32
/-- What the body has left after a point: the two result blocks' staging contents, then the running sums. -/
abbrev St (F : FTy → Type) [FloatOps F] : Type := Vec F S1x512x3 .f32 × Vec F S1x512x3 .f32 × Scr F

/-! ## What each case leaves, read back from the pieces its run found -/

section Cases
variable (c : Dev nD) (i : grid0.Coords) (arg2 : Memref sig .tc .vmem S1x512x3 .f32) (harg2 : arg2.IsWhole) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x3 .f32) (harg7 : arg7.IsWhole) (arg8 : Memref sig .tc .vmem S512x1 .f32) (harg8 : arg8.IsWhole) (arg9 : Memref sig .tc .vmem S512x3 .f32) (harg9 : arg9.IsWhole) (arg10 : Memref sig .tc .vmem S512x3 .f32) (harg10 : arg10.IsWhole)
variable (x0 x1 x2 x3 : Vec F S1x512x3 .f32) (xs0 : Vec F S512x1 .f32) (xs1 xs2 : Vec F S512x3 .f32)

/-- Column tile 0: the running sums after the point. -/
def scrA (hc0 : cond0_0 i) (hc1 : ¬cond0_1 i) : Scr F :=
  (VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3).1),
   VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1 x2 x3).2.1),
   VS0_2.read (Elt F) (VS0_2.writes (Elt F) VS0_2.junk (kernelRun0_A c i arg2 harg2 arg3 harg3 arg4 harg4 arg5 harg5 arg6 harg6 arg7 harg7 arg8 harg8 arg9 harg9 arg10 harg10 hc0 hc1 x0 x1 x2 x3).2.2.1))
/-- Column tiles 1 to 14: the running sums after the point, over what the point before left. -/
def scrB (hc0 : ¬cond0_0 i) (hc1 : ¬cond0_1 i) : Scr F :=
  (VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 xs0 xs1 xs2).1),
   VS0_1.read (Elt F) (VS0_1.writes (Elt F) VS0_1.junk (kernelRun0_B c i arg2 harg2 arg3 harg3 arg4 harg4 arg5 harg5 arg6 harg6 arg7 harg7 arg8 harg8 arg9 harg9 arg10 harg10 hc0 hc1 x0 x1 x2 x3 xs0 xs1 xs2).2.1),
   VS0_2.read (Elt F) (VS0_2.writes (Elt F) VS0_2.junk (kernelRun0_B c i arg2 harg2 arg3 harg3 arg4 harg4 arg5 harg5 arg6 harg6 arg7 harg7 arg8 harg8 arg9 harg9 arg10 harg10 hc0 hc1 x0 x1 x2 x3 xs0 xs1 xs2).2.2.1))
/-- Column tile 15: the two result blocks and the running sums after the point. -/
def stC (hc0 : ¬cond0_0 i) (hc1 : cond0_1 i) : St F :=
  (VO0_4.read (Elt F) (VO0_4.writes (Elt F) VO0_4.junk (kernelRun0_C c i arg2 harg2 arg3 harg3 arg4 harg4 arg5 harg5 arg6 harg6 arg7 harg7 arg8 harg8 arg9 harg9 arg10 harg10 hc0 hc1 x0 x1 x2 x3 xs0 xs1 xs2).1),
   VO0_5.read (Elt F) (VO0_5.writes (Elt F) VO0_5.junk (kernelRun0_C c i arg2 harg2 arg3 harg3 arg4 harg4 arg5 harg5 arg6 harg6 arg7 harg7 arg8 harg8 arg9 harg9 arg10 harg10 hc0 hc1 x0 x1 x2 x3 xs0 xs1 xs2).2.1),
   VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 xs0 xs1 xs2).2.2.1),
   VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 x0 x1 x2 x3 xs0 xs1 xs2).2.2.2.1),
   VS0_2.read (Elt F) (VS0_2.writes (Elt F) VS0_2.junk (kernelRun0_C c i arg2 harg2 arg3 harg3 arg4 harg4 arg5 harg5 arg6 harg6 arg7 harg7 arg8 harg8 arg9 harg9 arg10 harg10 hc0 hc1 x0 x1 x2 x3 xs0 xs1 xs2).2.2.2.2.1))

/-- In every case the pieces stored into a buffer tile it, so they cover it. -/
theorem scoverA_0 (hc0 : cond0_0 i) (hc1 : ¬cond0_1 i) (y : S512x1.Idx) : ∃ pc ∈ (kernelRun0_A c i arg2 harg2 arg3 harg3 arg4 harg4 arg5 harg5 arg6 harg6 arg7 harg7 arg8 harg8 arg9 harg9 arg10 harg10 hc0 hc1 x0 x1 x2 x3).1, y ∈ pc.1.set :=
  View.cover_of_tiledL _ S512x1.size (by sl_kernel_rfl) y
theorem scoverA_1 (hc0 : cond0_0 i) (hc1 : ¬cond0_1 i) (y : S512x3.Idx) : ∃ pc ∈ (kernelRun0_A c i arg2 harg2 arg3 harg3 arg4 harg4 arg5 harg5 arg6 harg6 arg7 harg7 arg8 harg8 arg9 harg9 arg10 harg10 hc0 hc1 x0 x1 x2 x3).2.1, y ∈ pc.1.set :=
  View.cover_of_tiledL _ S512x3.size (by sl_kernel_rfl) y
theorem scoverA_2 (hc0 : cond0_0 i) (hc1 : ¬cond0_1 i) (y : S512x3.Idx) : ∃ pc ∈ (kernelRun0_A c i arg2 harg2 arg3 harg3 arg4 harg4 arg5 harg5 arg6 harg6 arg7 harg7 arg8 harg8 arg9 harg9 arg10 harg10 hc0 hc1 x0 x1 x2 x3).2.2.1, y ∈ pc.1.set :=
  View.cover_of_tiledL _ S512x3.size (by sl_kernel_rfl) y
theorem scoverB_0 (hc0 : ¬cond0_0 i) (hc1 : ¬cond0_1 i) (y : S512x1.Idx) : ∃ pc ∈ (kernelRun0_B c i arg2 harg2 arg3 harg3 arg4 harg4 arg5 harg5 arg6 harg6 arg7 harg7 arg8 harg8 arg9 harg9 arg10 harg10 hc0 hc1 x0 x1 x2 x3 xs0 xs1 xs2).1, y ∈ pc.1.set :=
  View.cover_of_tiledL _ S512x1.size (by sl_kernel_rfl) y
theorem scoverB_1 (hc0 : ¬cond0_0 i) (hc1 : ¬cond0_1 i) (y : S512x3.Idx) : ∃ pc ∈ (kernelRun0_B c i arg2 harg2 arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL _ S512x3.size (by sl_kernel_rfl) y
theorem scoverB_2 (hc0 : ¬cond0_0 i) (hc1 : ¬cond0_1 i) (y : S512x3.Idx) : ∃ pc ∈ (kernelRun0_B c i arg2 harg2 arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL _ S512x3.size (by sl_kernel_rfl) y
theorem coverC_4 (hc0 : ¬cond0_0 i) (hc1 : cond0_1 i) (y : S1x512x3.Idx) : ∃ pc ∈ (kernelRun0_C c i arg2 harg2 arg3 harg3 arg4 harg4 arg5 harg5 arg6 harg6 arg7 harg7 arg8 harg8 arg9 harg9 arg10 harg10 hc0 hc1 x0 x1 x2 x3 xs0 xs1 xs2).1, y ∈ pc.1.set :=
  View.cover_of_tiledL _ S1x512x3.size (by sl_kernel_rfl) y
theorem coverC_5 (hc0 : ¬cond0_0 i) (hc1 : cond0_1 i) (y : S1x512x3.Idx) : ∃ pc ∈ (kernelRun0_C c i arg2 harg2 arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL _ S1x512x3.size (by sl_kernel_rfl) y
theorem scoverC_0 (hc0 : ¬cond0_0 i) (hc1 : cond0_1 i) (y : S512x1.Idx) : ∃ pc ∈ (kernelRun0_C c i arg2 harg2 arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL _ S512x1.size (by sl_kernel_rfl) y
theorem scoverC_1 (hc0 : ¬cond0_0 i) (hc1 : cond0_1 i) (y : S512x3.Idx) : ∃ pc ∈ (kernelRun0_C c i arg2 harg2 arg3 harg3 arg4 harg4 arg5 harg5 arg6 harg6 arg7 harg7 arg8 harg8 arg9 harg9 arg10 harg10 hc0 hc1 x0 x1 x2 x3 xs0 xs1 xs2).2.2.2.1, y ∈ pc.1.set :=
  View.cover_of_tiledL _ S512x3.size (by sl_kernel_rfl) y
theorem scoverC_2 (hc0 : ¬cond0_0 i) (hc1 : cond0_1 i) (y : S512x3.Idx) : ∃ pc ∈ (kernelRun0_C c i arg2 harg2 arg3 harg3 arg4 harg4 arg5 harg5 arg6 harg6 arg7 harg7 arg8 harg8 arg9 harg9 arg10 harg10 hc0 hc1 x0 x1 x2 x3 xs0 xs1 xs2).2.2.2.2.1, y ∈ pc.1.set :=
  View.cover_of_tiledL _ S512x3.size (by sl_kernel_rfl) y

end Cases

/-! ## Point by point -/

/-- The three cases at a grid point t, on the point's staging memrefs and input blocks. -/
def scrA_at (c : Dev nD) (t : Fin cfg0.N) (h0 : t.val % 16 = 0) : Scr F :=
  scrA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) ((hcond0_0 t).mpr h0) (fun h => by have := (hcond0_1 t).mp h; omega)
def scrB_at (c : Dev nD) (t : Fin cfg0.N) (h0 : ¬t.val % 16 = 0) (h1 : ¬t.val % 16 = 15) (s : Scr F) : Scr F :=
  scrB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) s.1 s.2.1 s.2.2 (fun h => h0 ((hcond0_0 t).mp h)) (fun h => h1 ((hcond0_1 t).mp h))
def stC_at (c : Dev nD) (t : Fin cfg0.N) (h0 : ¬t.val % 16 = 0) (h1 : t.val % 16 = 15) (s : Scr F) : St F :=
  stC c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) s.1 s.2.1 s.2.2 (fun h => h0 ((hcond0_0 t).mp h)) ((hcond0_1 t).mpr h1)

/-- A result window's staging contents where nothing consults them (the window idle and not written back). -/
def idle4 : Vec F S1x512x3 .f32 := VO0_4.read (Elt F) VO0_4.junk
def idle5 : Vec F S1x512x3 .f32 := VO0_5.read (Elt F) VO0_5.junk

/-- THE ACCUMULATION: what the body has left after the point at position n — the case the column tile selects, the
    running sums carried from the point before except at column tile 0. -/
def outsAt0 (c : Dev nD) : (n : ℕ) → n < cfg0.N → St F
  | 0, hn => (idle4, idle5, scrA_at m c ⟨0, hn⟩ (Nat.zero_mod _))
  | n + 1, hn =>
    if h0 : (n + 1) % 16 = 0 then (idle4, idle5, scrA_at m c ⟨n + 1, hn⟩ h0)
    else if h1 : (n + 1) % 16 = 15 then stC_at m c ⟨n + 1, hn⟩ h0 h1 (outsAt0 c n (Nat.lt_of_succ_lt hn)).2.2
    else (idle4, idle5, scrB_at m c ⟨n + 1, hn⟩ h0 h1 (outsAt0 c n (Nat.lt_of_succ_lt hn)).2.2)

theorem outsAt0_A (c : Dev nD) (t : Fin cfg0.N) (h0 : t.val % 16 = 0) :
    outsAt0 m c t.val t.isLt = (idle4, idle5, scrA_at m c t h0) := by
  obtain ⟨n, hn⟩ := t
  cases n with
  | zero => rfl
  | succ n => exact (dif_pos h0).trans rfl
theorem outsAt0_B (c : Dev nD) (t : Fin cfg0.N) (h0 : ¬t.val % 16 = 0) (h1 : ¬t.val % 16 = 15) :
    outsAt0 m c t.val t.isLt = (idle4, idle5, scrB_at m c t h0 h1 (outsAt0 m c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h1).trans rfl)
theorem outsAt0_C (c : Dev nD) (t : Fin cfg0.N) (h0 : ¬t.val % 16 = 0) (h1 : t.val % 16 = 15) :
    outsAt0 m c t.val t.isLt = stC_at m c t h0 h1 (outsAt0 m c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-- The region's invariant before the point at position n: before the first point the three scratch buffers at anything;
    afterwards at the running sums the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0_0 fullShare (outsAt0 m c n hn).2.2.1
      ∗ owns (c : Thread nD τ) scM0_1 fullShare (outsAt0 m c n hn).2.2.2.1 ∗ owns (c : Thread nD τ) scM0_2 fullShare (outsAt0 m c n hn).2.2.2.2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS m c (n + 1) hn = iprop(owns (c : Thread nD τ) scM0_0 fullShare (outsAt0 m c n hn).2.2.1
      ∗ owns (c : Thread nD τ) scM0_1 fullShare (outsAt0 m c n hn).2.2.2.1 ∗ owns (c : Thread nD τ) scM0_2 fullShare (outsAt0 m c n hn).2.2.2.2) := rfl
theorem PhiS_pos (c : Dev nD) (n : ℕ) (h : n ≤ cfg0.N) (hz : n ≠ 0) :
    PhiS m c n h = iprop(owns (c : Thread nD τ) scM0_0 fullShare (outsAt0 m c (n - 1) (by omega)).2.2.1
      ∗ owns (c : Thread nD τ) scM0_1 fullShare (outsAt0 m c (n - 1) (by omega)).2.2.2.1 ∗ owns (c : Thread nD τ) scM0_2 fullShare (outsAt0 m c (n - 1) (by omega)).2.2.2.2) := by
  cases n with
  | zero => exact absurd rfl hz
  | succ n => rfl

/-! ## The pipeline's proof data -/

/-- The proof data on core c: the arrays as the region finds them; after the body at point t each input's buffer at its
    block and each result's at what the accumulation says; the invariant above; nothing owed; each argument array held
    in two halves, the left by its row-tile window and the right by its column-tile window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 8000000 in
/-- The body at any point. The input buffers hold their blocks; the column tile says which of the three runs applies;
    the invariant hands the run the scratch buffers at the running sums the point before left (at anything before the
    first point) and takes them back at this point's; the result windows are handed back untouched off the last column
    tile and at the stored blocks on it; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 16 = 0
  · have h1 : ¬t.val % 16 = 15 := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [Dat.leavesExact_idle (dats m 0 c) 4 t (idleAt0_4 t (fun h => h1 ((hcond0_1 t).mp h))) (noFlush0_4 t (fun h => h1 ((hcond0_1 t).mp h)))]
    rw [Dat.leavesExact_idle (dats m 0 c) 5 t (idleAt0_5 t (fun h => h1 ((hcond0_1 t).mp h))) (noFlush0_5 t (fun h => h1 ((hcond0_1 t).mp h)))]
    rw [outsAt0_A m c t h0]
    unfold scrA_at scrA; (try dsimp only)
    by_cases hz : t.val = 0
    · rw [PhiS_castSucc m c t, PhiS_zero m c _ _ hz, scopedRest_owns]
      iintro ⟨⟨HS0, HS1, HS2⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t)).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2]
      · isplitl [HS0]
        · unfold owns; iexists _; isplitr
          swap; · iexact HS0
          ipureintro; exact View.read_writes_of_cover _ _ _ _ _ (scoverA_0 c _ _ _ _ _ _ _ _ _ _ _ _ _ _ _ _ _ _ _ _ _ _ _ _ _)
        isplitl [HS1]
        · unfold owns; iexists _; isplitr
          swap; · iexact HS1
          ipureintro; exact View.read_writes_of_cover _ _ _ _ _ (scoverA_1 c _ _ _ _ _ _ _ _ _ _ _ _ _ _ _ _ _ _ _ _ _ _ _ _ _)
        unfold owns; iexists _; isplitr
        swap; · iexact HS2
        ipureintro; exact View.read_writes_of_cover _ _ _ _ _ (scoverA_2 c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS_castSucc m c t, PhiS_pos m c _ _ hz]
      iintro ⟨⟨HS0, HS1, HS2⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t)).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, ⟨%es0, HS0⟩, ⟨%es1, HS1⟩, ⟨%es2, HS2⟩⟩
      isplitl [HS0 HS1 HS2]
      · isplitl [HS0]
        · unfold owns; iexists _; isplitr
          swap; · iexact HS0
          ipureintro; exact View.read_writes_of_cover _ _ _ _ _ (scoverA_0 c _ _ _ _ _ _ _ _ _ _ _ _ _ _ _ _ _ _ _ _ _ _ _ _ _)
        isplitl [HS1]
        · unfold owns; iexists _; isplitr
          swap; · iexact HS1
          ipureintro; exact View.read_writes_of_cover _ _ _ _ _ (scoverA_1 c _ _ _ _ _ _ _ _ _ _ _ _ _ _ _ _ _ _ _ _ _ _ _ _ _)
        unfold owns; iexists _; isplitr
        swap; · iexact HS2
        ipureintro; exact View.read_writes_of_cover _ _ _ _ _ (scoverA_2 c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun e => h0 (by rw [e])
    by_cases h1 : t.val % 16 = 15
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [show (dats m 0 c).leavesExact 5 t = owns (c : Thread nD τ) (ms0_5 t) fullShare ((dats m 0 c).after 5 t) from by
        unfold Dat.leavesExact; rw [liveAt0_5 t ((hcond0_1 t).mpr h1)], after0_5]
      rw [outsAt0_C m c t h0 h1]
      unfold stC_at stC; (try dsimp only)
      rw [PhiS_castSucc m c t, PhiS_pos m c _ _ hz]
      iintro ⟨⟨HS0, HS1, HS2⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) _ _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      isplitl [HS2]; · iexact HS2
      iintro ⟨H0, H1, H2, H3, ⟨%e4, H4⟩, ⟨%e5, H5⟩, ⟨%es0, HS0⟩, ⟨%es1, HS1⟩, ⟨%es2, HS2⟩⟩
      isplitl [HS0 HS1 HS2]
      · isplitl [HS0]
        · unfold owns; iexists _; isplitr
          swap; · iexact HS0
          ipureintro; exact View.read_writes_of_cover _ _ _ _ _ (scoverC_0 c _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scoverC_1 c _ _ _ _ _ _ _ _ _ _ _ _ _ _ _ _ _ _ _ _ _ _ _ _ _ _ _ _)
        unfold owns; iexists _; isplitr
        swap; · iexact HS2
        ipureintro; exact View.read_writes_of_cover _ _ _ _ _ (scoverC_2 c _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverC_4 c _ _ _ _ _ _ _ _ _ _ _ _ _ _ _ _ _ _ _ _ _ _ _ _ _ _ _ _)
      unfold owns; iexists _; isplitr
      swap; · iexact H5
      ipureintro; exact View.read_writes_of_cover _ _ _ _ _ (coverC_5 c _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [Dat.leavesExact_idle (dats m 0 c) 5 t (idleAt0_5 t (fun h => h1 ((hcond0_1 t).mp h))) (noFlush0_5 t (fun h => h1 ((hcond0_1 t).mp h)))]
      rw [outsAt0_B m c t h0 h1]
      unfold scrB_at scrB; (try dsimp only)
      rw [PhiS_castSucc m c t, PhiS_pos m c _ _ hz]
      iintro ⟨⟨HS0, HS1, HS2⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2]
      · isplitl [HS0]
        · unfold owns; iexists _; isplitr
          swap; · iexact HS0
          ipureintro; exact View.read_writes_of_cover _ _ _ _ _ (scoverB_0 c _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scoverB_1 c _ _ _ _ _ _ _ _ _ _ _ _ _ _ _ _ _ _ _ _ _ _ _ _ _ _ _ _)
        unfold owns; iexists _; isplitr
        swap; · iexact HS2
        ipureintro; exact View.read_writes_of_cover _ _ _ _ _ (scoverB_2 c _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Fr

end
-- ==== Proof.KI.Launch.lean ====
/-
  The kernel's launch: the region invariant at its two ends, the two argument arrays split between the windows that
  share them, the run, and the frame.
-/
import proofs.«106366_j31361851195747_1_alg».proof.Proof.KI.Frame

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch -/

/-- @main is the region alone. -/
theorem main_eq (c : Dev nD) : main (F := F) c = (.op (.customCall (Pipeline.entry 0) ()) fun _ => .ret ⟨⟩) := rfl

/-- Before the first point the invariant is the scratch buffers at anything, as the launch hands them over, -/
theorem hin (c : Dev nD) :
    iprop((BI.emp : sProp 𝕄) ∗ Pipeline.scopedRest (Ix := Unit) (Name := ℕ) (U := UR sig nD τ) (Lvl := ℕ) (Val := Elt F) spec0 c) ⊢ (dats m 0 c).Φ 0 := by
  rw [show (dats m 0 c).Φ 0 = PhiS m c 0 (Nat.zero_le _) from rfl, PhiS_zero m c 0 _ rfl]
  iintro ⟨-, H⟩; iexact H

/-- After any point but the first the invariant gives the scratch buffers back, their contents forgotten; -/
theorem Phi_out (c : Dev nD) (t : Fin (cfg0.N + 1)) (ht : t.val ≠ 0) :
    (dats m 0 c).Φ t
      ⊢ iprop((BI.emp : sProp 𝕄) ∗ Pipeline.scopedRest (Ix := Unit) (Name := ℕ) (U := UR sig nD τ) (Lvl := ℕ) (Val := Elt F) spec0 c) := by
  rw [show (dats m 0 c).Φ t = PhiS m c t.val (Nat.le_of_lt_succ t.isLt) from rfl, PhiS_pos m c _ _ ht, scopedRest_owns]
  iintro ⟨HS0, HS1, HS2⟩
  isplitr [HS0 HS1 HS2]; · iempintro
  isplitl [HS0]; · iexists _; iexact HS0
  isplitl [HS1]; · iexists _; iexact HS1
  iexists _; iexact HS2

/-- so after the last point. -/
theorem hout (c : Dev nD) :
    (dats m 0 c).Φ (Fin.last cfg0.N)
      ⊢ iprop((BI.emp : sProp 𝕄) ∗ Pipeline.scopedRest (Ix := Unit) (Name := ℕ) (U := UR sig nD τ) (Lvl := ℕ) (Val := Elt F) spec0 c) :=
  Phi_out m c _ (by rw [Fin.val_last]; have : cfg0.N = 256 := N_0; omega)

set_option maxHeartbeats 4000000 in
/-- The distinct buffers behind the six windows' arrays: the positions, the momenta and the two results. -/
theorem arrRefs_eq : Finset.univ.image (Pipeline.arrRef spec0) = [main_arg1, main_arg0, main_v0_0, main_v0_1].toFinset := by decide

/-- The pipeline's arrays, every array a whole buffer, window by window at its share. -/
theorem arrays_eq_shares (c : Dev nD) (G : (w : Fin cfg0.W) → Buf (Elt F) ((cfg0.win w).arr.view.loc (c.tc : Thread nD τ))) :
    ((dats m 0 c).arrays G : sProp 𝕄)
      = bigSep Finset.univ fun w => (((c.tc : Thread nD τ).loc (Pipeline.arrRef spec0 w)) ↦{(dats m 0 c).share w} G w : sProp 𝕄) := by
  unfold Dat.arrays
  exact bigSep_congr fun w _ => by rw [(arr_whole0 w).set_eq_univ]

/-- The launch's holdings of the arrays, one buffer at a time. -/
theorem arrBufs_eq (c : Dev nD) :
    (Pipeline.arrBufs (Ix := Unit) (Name := ℕ) (U := UR sig nD τ) (Lvl := ℕ) spec0 c (V m c) : sProp 𝕄)
      = iprop((((c.tc : Thread nD τ).loc main_arg1) ↦{fullShare} V m c main_arg1) ∗ (((c.tc : Thread nD τ).loc main_arg0) ↦{fullShare} V m c main_arg0)
          ∗ (((c.tc : Thread nD τ).loc main_v0_0) ↦{fullShare} V m c main_v0_0) ∗ (((c.tc : Thread nD τ).loc main_v0_1) ↦{fullShare} V m c main_v0_1)) := by
  unfold Pipeline.arrBufs
  exact bigSep_eq_bigSepL_of_eq [main_arg1, main_arg0, main_v0_0, main_v0_1] arrRefs_eq (by decide) _

/-- The launch's holdings become the pipeline's: each argument array, held whole, is split into its two halves, one
    for the row-tile window and one for the column-tile window; the two results are held whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_eq_shares, arrBufs_eq, bigSep_W0]
  iintro ⟨Hx, Hp, Ho4, Ho5⟩
  ihave Hx2 := (pointsTo_share (PosShare.mem_left_op_right fullShare)).1 $$ Hx
  icases Hx2 with ⟨Hxl, Hxr⟩
  ihave Hp2 := (pointsTo_share (PosShare.mem_left_op_right fullShare)).1 $$ Hp
  icases Hp2 with ⟨Hpl, Hpr⟩
  isplitl [Hxl]; · iexact Hxl
  isplitl [Hpl]; · iexact Hpl
  isplitl [Hxr]; · iexact Hxr
  isplitl [Hpr]; · iexact Hpr
  isplitl [Ho4]; · iexact Ho4
  iexact Ho5

set_option backward.isDefEq.respectTransparency.types false in
/-- From any memory with zero counters every weakly fair execution of @main terminates, and in every final state each
    window's array holds what the library computes from the proof data: an input its entry contents, a result those
    overwritten by the blocks written back. -/
theorem run_main : θ_run defs (onTc (τ := τ) (main (F := F))) ⟨m, fun _ => 0, ρ⟩
    (fun r => ∀ c : Dev nD, ∀ w : Fin cfg0.W, r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := Pipeline.hmain_region cfgs 0 defs₀ Variants.none m main main_eq)
    (hsplit := hsplit m)
    (X := fun _ => BI.emp) (Y := fun _ => BI.emp) (Z := fun _ => BI.emp)
    (hX := fun c => by rw [unscopedRest0_eq]; iintro -; isplitl [] <;> iempintro)
    (hin := hin m) (hout := hout m)
    (QY := fun _ _ => True)
    (hY := fun c s' => by
      iintro ⟨-, -, HSI⟩; imodintro
      isplitr [HSI]; · ipureintro; trivial
      iexact HSI)
    (hQ := fun s h c w => (h c).1 w)

/-- info: 'Cert.KernelIdeal.Fr.run_main' depends on axioms: [propext, Classical.choice, Quot.sound] -/
#guard_msgs in #print axioms run_main

/-- THE FRAME: the program runs to the end without a fault and its two argument arrays end unchanged — each is behind
    input windows only, and an input window's array is never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c 1).trans (((dats m 0 c).arrAt_in 1 rfl _).trans (A_eq m c 1)),
     (h c 0).trans (((dats m 0 c).arrAt_in 0 rfl _).trans (A_eq m c 0))⟩) (run_main m ρ)

end Cert.KernelIdeal.Fr

end
-- ==== Proof.KI.Step.lean ====
/-
  One grid point of the kernel as a pure step on its three running sums, over the body's own named values.

  The kernel walks a 16 × 16 grid of (row tile i, column tile j). It keeps three running sums in scratch — the row
  sums of the weights (512 × 1), the weights times the column tile's positions (512 × 3) and the Gaussian weights
  times the column tile's momenta (512 × 3) —, sets them to zero at j = 0, adds the tile's contribution at every
  point, and at j = 15 writes the two result blocks from them.
-/
import proofs.«106366_j31361851195747_1_alg».proof.Proof.Gen.KernelIdeal.Skeleton

noncomputable section

namespace Cert.KernelIdeal.Fr

open Idealize.ShloMosaic Cert.KernelIdeal Cert.KernelIdeal.Gen

variable {F : FTy → Type} [FloatOps F]

/-- The three running sums: row sums of the weights, weights × positions, Gaussian weights × momenta. -/
abbrev Acc (F : FTy → Type) [FloatOps F] : Type := Vec F S512x1 .f32 × Vec F S512x3 .f32 × Vec F S512x3 .f32

/-- The running sums as the first column tile finds them: all zero. -/
def accZero : Acc F := (k0_pay6 (F := F), k0_pay7 (F := F), k0_pay8 (F := F))

/-- One point's contribution added: from the row tile's positions and momenta (xi, pi), the column tile's (xj, pj)
    and the running sums so far. -/
def accStep (xi pi xj pj : Vec F S1x512x3 .f32) (a : Acc F) : Acc F :=
  (k0_pay1 a.1 (k0_pay14 xi pi xj pj), k0_pay2 (k0_pay10 xj) (k0_pay13 xi pi xj pj) a.2.1, k0_pay3 (k0_pay11 pj) (k0_pay12 xi xj) a.2.2)

/-- The first result's block, from the row tile's positions and the finished running sums. -/
def outDmom (xi : Vec F S1x512x3 .f32) (a : Acc F) : Vec F S1x512x3 .f32 := k0_pay4 (k0_pay9 xi) a.1 a.2.1

/-- The second result's block: the third running sum, reshaped. -/
def outDx (a : Acc F) : Vec F S1x512x3 .f32 := k0_pay5 a.2.2

end Cert.KernelIdeal.Fr

end
-- ==== Proof.KI.Pieces.lean ====
/-
  What the body's three runs leave, as the body's own named values: at column tile 0 one step from the zero sums, at
  column tiles 1 to 14 one step from the sums carried in, at column tile 15 that step and the two result blocks formed
  from the finished sums. For every float instance.
-/
import proofs.«106366_j31361851195747_1_alg».proof.Proof.KI.Frame
import proofs.«106366_j31361851195747_1_alg».proof.Proof.KI.Step
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## The pieces each run found, as the body's named values

Every buffer the body stores into is stored whole, through the rectangle at zero offsets of the buffer's own sizes; so
what a run leaves in it is the payload of its last store, a load of it after a store reads that store's payload, and a
load of an input buffer reads the block it holds. -/

section Pieces
variable (c : Dev nD) (i : grid0.Coords) (arg2 : Memref sig .tc .vmem S1x512x3 .f32) (harg2 : arg2.IsWhole) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x3 .f32) (harg7 : arg7.IsWhole) (arg8 : Memref sig .tc .vmem S512x1 .f32) (harg8 : arg8.IsWhole) (arg9 : Memref sig .tc .vmem S512x3 .f32) (harg9 : arg9.IsWhole) (arg10 : Memref sig .tc .vmem S512x3 .f32) (harg10 : arg10.IsWhole)
variable (x0 x1 x2 x3 : Vec F S1x512x3 .f32) (xs0 : Vec F S512x1 .f32) (xs1 xs2 : Vec F S512x3 .f32)

/-- The zero offsets of a rank-2 and of a rank-3 buffer, as the body spells them. -/
theorem hz2 : (![0, 0] : Fin 2 → Nat) = fun _ => 0 := funext fun a => by fin_cases a <;> rfl
theorem hz3 : (![0, 0, 0] : Fin 3 → Nat) = fun _ => 0 := funext fun a => by fin_cases a <;> rfl

/-- Column tile 0, the row sums: the zero block is stored, read back, and the tile's row sums are added to it. -/
theorem scrA_0 (hc0 : cond0_0 i) (hc1 : ¬cond0_1 i) :
    (scrA c i arg2 harg2 arg3 harg3 arg4 harg4 arg5 harg5 arg6 harg6 arg7 harg7 arg8 harg8 arg9 harg9 arg10 harg10 x0 x1 x2 x3 hc0 hc1).1 = k0_pay1 (k0_pay6 (F := F)) (k0_pay14 x0 x1 x2 x3) := by
  unfold scrA
  dsimp only
  rw [View.read_writes_eq_canon _ _ _ (scoverA_0 c i arg2 harg2 arg3 harg3 arg4 harg4 arg5 harg5 arg6 harg6 arg7 harg7 arg8 harg8 arg9 harg9 arg10 harg10 x0 x1 x2 x3 hc0 hc1)]
  unfold kernelRun0_A
  dsimp only
  sl_unfold_words
  rw [View.canon_cons_unit_zero (S := S512x1) hz2]
  simp only [View.readCov_unit_zero (S := S512x1) _ hz2, View.readCov_unit_zero (S := S512x3) _ hz2, View.readAt_eq_ld, harg2.read_unread, harg3.read_unread, harg4.read_unread, harg5.read_unread, View.ld_unit_zero (S := S1x512x3) hz3, View.ld_unit_zero (S := S512x1) hz2, View.ld_unit_zero (S := S512x3) hz2]

/-- Column tile 0, the weights times positions: the tile's product added to the zero block read back. -/
theorem scrA_1 (hc0 : cond0_0 i) (hc1 : ¬cond0_1 i) :
    (scrA c i arg2 harg2 arg3 harg3 arg4 harg4 arg5 harg5 arg6 harg6 arg7 harg7 arg8 harg8 arg9 harg9 arg10 harg10 x0 x1 x2 x3 hc0 hc1).2.1 = k0_pay2 (k0_pay10 x2) (k0_pay13 x0 x1 x2 x3) (k0_pay7 (F := F)) := by
  unfold scrA
  dsimp only
  rw [View.read_writes_eq_canon _ _ _ (scoverA_1 c i arg2 harg2 arg3 harg3 arg4 harg4 arg5 harg5 arg6 harg6 arg7 harg7 arg8 harg8 arg9 harg9 arg10 harg10 x0 x1 x2 x3 hc0 hc1)]
  unfold kernelRun0_A
  dsimp only
  sl_unfold_words
  rw [View.canon_cons_unit_zero (S := S512x3) hz2]
  simp only [View.readCov_unit_zero (S := S512x1) _ hz2, View.readCov_unit_zero (S := S512x3) _ hz2, View.readAt_eq_ld, harg2.read_unread, harg3.read_unread, harg4.read_unread, harg5.read_unread, View.ld_unit_zero (S := S1x512x3) hz3, View.ld_unit_zero (S := S512x1) hz2, View.ld_unit_zero (S := S512x3) hz2]

/-- Column tile 0, the Gaussian weights times momenta: the tile's product added to the zero block read back. -/
theorem scrA_2 (hc0 : cond0_0 i) (hc1 : ¬cond0_1 i) :
    (scrA c i arg2 harg2 arg3 harg3 arg4 harg4 arg5 harg5 arg6 harg6 arg7 harg7 arg8 harg8 arg9 harg9 arg10 harg10 x0 x1 x2 x3 hc0 hc1).2.2 = k0_pay3 (k0_pay11 x3) (k0_pay12 x0 x2) (k0_pay8 (F := F)) := by
  unfold scrA
  dsimp only
  rw [View.read_writes_eq_canon _ _ _ (scoverA_2 c i arg2 harg2 arg3 harg3 arg4 harg4 arg5 harg5 arg6 harg6 arg7 harg7 arg8 harg8 arg9 harg9 arg10 harg10 x0 x1 x2 x3 hc0 hc1)]
  unfold kernelRun0_A
  dsimp only
  sl_unfold_words
  rw [View.canon_cons_unit_zero (S := S512x3) hz2]
  simp only [View.readCov_unit_zero (S := S512x1) _ hz2, View.readCov_unit_zero (S := S512x3) _ hz2, View.readAt_eq_ld, harg2.read_unread, harg3.read_unread, harg4.read_unread, harg5.read_unread, View.ld_unit_zero (S := S1x512x3) hz3, View.ld_unit_zero (S := S512x1) hz2, View.ld_unit_zero (S := S512x3) hz2]

/-- Column tiles 1 to 14, the row sums: the tile's row sums added to the sums carried in. -/
theorem scrB_0 (hc0 : ¬cond0_0 i) (hc1 : ¬cond0_1 i) :
    (scrB c i arg2 harg2 arg3 harg3 arg4 harg4 arg5 harg5 arg6 harg6 arg7 harg7 arg8 harg8 arg9 harg9 arg10 harg10 x0 x1 x2 x3 xs0 xs1 xs2 hc0 hc1).1 = k0_pay1 xs0 (k0_pay14 x0 x1 x2 x3) := by
  unfold scrB
  dsimp only
  rw [View.read_writes_eq_canon _ _ _ (scoverB_0 c i arg2 harg2 arg3 harg3 arg4 harg4 arg5 harg5 arg6 harg6 arg7 harg7 arg8 harg8 arg9 harg9 arg10 harg10 x0 x1 x2 x3 xs0 xs1 xs2 hc0 hc1)]
  unfold kernelRun0_B
  dsimp only
  sl_unfold_words
  rw [View.canon_unit_zero (S := S512x1) hz2]
  simp only [View.readCov_unit_zero (S := S512x1) _ hz2, View.readCov_unit_zero (S := S512x3) _ hz2, View.readAt_eq_ld, harg2.read_unread, harg3.read_unread, harg4.read_unread, harg5.read_unread, harg8.read_unread, harg9.read_unread, harg10.read_unread, View.ld_unit_zero (S := S1x512x3) hz3, View.ld_unit_zero (S := S512x1) hz2, View.ld_unit_zero (S := S512x3) hz2]

/-- Column tiles 1 to 14, the weights times positions: the tile's product added to the sum carried in. -/
theorem scrB_1 (hc0 : ¬cond0_0 i) (hc1 : ¬cond0_1 i) :
    (scrB c i arg2 harg2 arg3 harg3 arg4 harg4 arg5 harg5 arg6 harg6 arg7 harg7 arg8 harg8 arg9 harg9 arg10 harg10 x0 x1 x2 x3 xs0 xs1 xs2 hc0 hc1).2.1 = k0_pay2 (k0_pay10 x2) (k0_pay13 x0 x1 x2 x3) xs1 := by
  unfold scrB
  dsimp only
  rw [View.read_writes_eq_canon _ _ _ (scoverB_1 c i arg2 harg2 arg3 harg3 arg4 harg4 arg5 harg5 arg6 harg6 arg7 harg7 arg8 harg8 arg9 harg9 arg10 harg10 x0 x1 x2 x3 xs0 xs1 xs2 hc0 hc1)]
  unfold kernelRun0_B
  dsimp only
  sl_unfold_words
  rw [View.canon_unit_zero (S := S512x3) hz2]
  simp only [View.readCov_unit_zero (S := S512x1) _ hz2, View.readCov_unit_zero (S := S512x3) _ hz2, View.readAt_eq_ld, harg2.read_unread, harg3.read_unread, harg4.read_unread, harg5.read_unread, harg8.read_unread, harg9.read_unread, harg10.read_unread, View.ld_unit_zero (S := S1x512x3) hz3, View.ld_unit_zero (S := S512x1) hz2, View.ld_unit_zero (S := S512x3) hz2]

/-- Column tiles 1 to 14, the Gaussian weights times momenta: the tile's product added to the sum carried in. -/
theorem scrB_2 (hc0 : ¬cond0_0 i) (hc1 : ¬cond0_1 i) :
    (scrB c i arg2 harg2 arg3 harg3 arg4 harg4 arg5 harg5 arg6 harg6 arg7 harg7 arg8 harg8 arg9 harg9 arg10 harg10 x0 x1 x2 x3 xs0 xs1 xs2 hc0 hc1).2.2 = k0_pay3 (k0_pay11 x3) (k0_pay12 x0 x2) xs2 := by
  unfold scrB
  dsimp only
  rw [View.read_writes_eq_canon _ _ _ (scoverB_2 c i arg2 harg2 arg3 harg3 arg4 harg4 arg5 harg5 arg6 harg6 arg7 harg7 arg8 harg8 arg9 harg9 arg10 harg10 x0 x1 x2 x3 xs0 xs1 xs2 hc0 hc1)]
  unfold kernelRun0_B
  dsimp only
  sl_unfold_words
  rw [View.canon_unit_zero (S := S512x3) hz2]
  simp only [View.readCov_unit_zero (S := S512x1) _ hz2, View.readCov_unit_zero (S := S512x3) _ hz2, View.readAt_eq_ld, harg2.read_unread, harg3.read_unread, harg4.read_unread, harg5.read_unread, harg8.read_unread, harg9.read_unread, harg10.read_unread, View.ld_unit_zero (S := S1x512x3) hz3, View.ld_unit_zero (S := S512x1) hz2, View.ld_unit_zero (S := S512x3) hz2]

/-- Column tile 15, the row sums: as at the tiles before. -/
theorem stC_s0 (hc0 : ¬cond0_0 i) (hc1 : cond0_1 i) :
    (stC c i arg2 harg2 arg3 harg3 arg4 harg4 arg5 harg5 arg6 harg6 arg7 harg7 arg8 harg8 arg9 harg9 arg10 harg10 x0 x1 x2 x3 xs0 xs1 xs2 hc0 hc1).2.2.1 = k0_pay1 xs0 (k0_pay14 x0 x1 x2 x3) := by
  unfold stC
  dsimp only
  rw [View.read_writes_eq_canon _ _ _ (scoverC_0 c i arg2 harg2 arg3 harg3 arg4 harg4 arg5 harg5 arg6 harg6 arg7 harg7 arg8 harg8 arg9 harg9 arg10 harg10 x0 x1 x2 x3 xs0 xs1 xs2 hc0 hc1)]
  unfold kernelRun0_C
  dsimp only
  sl_unfold_words
  rw [View.canon_unit_zero (S := S512x1) hz2]
  simp only [View.readCov_unit_zero (S := S512x1) _ hz2, View.readCov_unit_zero (S := S512x3) _ hz2, View.readAt_eq_ld, harg2.read_unread, harg3.read_unread, harg4.read_unread, harg5.read_unread, harg8.read_unread, harg9.read_unread, harg10.read_unread, View.ld_unit_zero (S := S1x512x3) hz3, View.ld_unit_zero (S := S512x1) hz2, View.ld_unit_zero (S := S512x3) hz2]

/-- Column tile 15, the weights times positions: as at the tiles before. -/
theorem stC_s1 (hc0 : ¬cond0_0 i) (hc1 : cond0_1 i) :
    (stC c i arg2 harg2 arg3 harg3 arg4 harg4 arg5 harg5 arg6 harg6 arg7 harg7 arg8 harg8 arg9 harg9 arg10 harg10 x0 x1 x2 x3 xs0 xs1 xs2 hc0 hc1).2.2.2.1 = k0_pay2 (k0_pay10 x2) (k0_pay13 x0 x1 x2 x3) xs1 := by
  unfold stC
  dsimp only
  rw [View.read_writes_eq_canon _ _ _ (scoverC_1 c i arg2 harg2 arg3 harg3 arg4 harg4 arg5 harg5 arg6 harg6 arg7 harg7 arg8 harg8 arg9 harg9 arg10 harg10 x0 x1 x2 x3 xs0 xs1 xs2 hc0 hc1)]
  unfold kernelRun0_C
  dsimp only
  sl_unfold_words
  rw [View.canon_unit_zero (S := S512x3) hz2]
  simp only [View.readCov_unit_zero (S := S512x1) _ hz2, View.readCov_unit_zero (S := S512x3) _ hz2, View.readAt_eq_ld, harg2.read_unread, harg3.read_unread, harg4.read_unread, harg5.read_unread, harg8.read_unread, harg9.read_unread, harg10.read_unread, View.ld_unit_zero (S := S1x512x3) hz3, View.ld_unit_zero (S := S512x1) hz2, View.ld_unit_zero (S := S512x3) hz2]

/-- Column tile 15, the Gaussian weights times momenta: as at the tiles before. -/
theorem stC_s2 (hc0 : ¬cond0_0 i) (hc1 : cond0_1 i) :
    (stC c i arg2 harg2 arg3 harg3 arg4 harg4 arg5 harg5 arg6 harg6 arg7 harg7 arg8 harg8 arg9 harg9 arg10 harg10 x0 x1 x2 x3 xs0 xs1 xs2 hc0 hc1).2.2.2.2 = k0_pay3 (k0_pay11 x3) (k0_pay12 x0 x2) xs2 := by
  unfold stC
  dsimp only
  rw [View.read_writes_eq_canon _ _ _ (scoverC_2 c i arg2 harg2 arg3 harg3 arg4 harg4 arg5 harg5 arg6 harg6 arg7 harg7 arg8 harg8 arg9 harg9 arg10 harg10 x0 x1 x2 x3 xs0 xs1 xs2 hc0 hc1)]
  unfold kernelRun0_C
  dsimp only
  sl_unfold_words
  rw [View.canon_unit_zero (S := S512x3) hz2]
  simp only [View.readCov_unit_zero (S := S512x1) _ hz2, View.readCov_unit_zero (S := S512x3) _ hz2, View.readAt_eq_ld, harg2.read_unread, harg3.read_unread, harg4.read_unread, harg5.read_unread, harg8.read_unread, harg9.read_unread, harg10.read_unread, View.ld_unit_zero (S := S1x512x3) hz3, View.ld_unit_zero (S := S512x1) hz2, View.ld_unit_zero (S := S512x3) hz2]

/-- Column tile 15, the first result's block: formed from the row tile's positions and the two finished sums read back after their updates. -/
theorem stC_4 (hc0 : ¬cond0_0 i) (hc1 : cond0_1 i) :
    (stC c i arg2 harg2 arg3 harg3 arg4 harg4 arg5 harg5 arg6 harg6 arg7 harg7 arg8 harg8 arg9 harg9 arg10 harg10 x0 x1 x2 x3 xs0 xs1 xs2 hc0 hc1).1 = k0_pay4 (k0_pay9 x0) (k0_pay1 xs0 (k0_pay14 x0 x1 x2 x3)) (k0_pay2 (k0_pay10 x2) (k0_pay13 x0 x1 x2 x3) xs1) := by
  unfold stC
  dsimp only
  rw [View.read_writes_eq_canon _ _ _ (coverC_4 c i arg2 harg2 arg3 harg3 arg4 harg4 arg5 harg5 arg6 harg6 arg7 harg7 arg8 harg8 arg9 harg9 arg10 harg10 x0 x1 x2 x3 xs0 xs1 xs2 hc0 hc1)]
  unfold kernelRun0_C
  dsimp only
  sl_unfold_words
  rw [View.canon_unit_zero (S := S1x512x3) hz3]
  simp only [View.readCov_unit_zero (S := S512x1) _ hz2, View.readCov_unit_zero (S := S512x3) _ hz2, View.readAt_eq_ld, harg2.read_unread, harg3.read_unread, harg4.read_unread, harg5.read_unread, harg8.read_unread, harg9.read_unread, harg10.read_unread, View.ld_unit_zero (S := S1x512x3) hz3, View.ld_unit_zero (S := S512x1) hz2, View.ld_unit_zero (S := S512x3) hz2]

/-- Column tile 15, the second result's block: the third finished sum read back after its update, reshaped. -/
theorem stC_5 (hc0 : ¬cond0_0 i) (hc1 : cond0_1 i) :
    (stC c i arg2 harg2 arg3 harg3 arg4 harg4 arg5 harg5 arg6 harg6 arg7 harg7 arg8 harg8 arg9 harg9 arg10 harg10 x0 x1 x2 x3 xs0 xs1 xs2 hc0 hc1).2.1 = k0_pay5 (k0_pay3 (k0_pay11 x3) (k0_pay12 x0 x2) xs2) := by
  unfold stC
  dsimp only
  rw [View.read_writes_eq_canon _ _ _ (coverC_5 c i arg2 harg2 arg3 harg3 arg4 harg4 arg5 harg5 arg6 harg6 arg7 harg7 arg8 harg8 arg9 harg9 arg10 harg10 x0 x1 x2 x3 xs0 xs1 xs2 hc0 hc1)]
  unfold kernelRun0_C
  dsimp only
  sl_unfold_words
  rw [View.canon_unit_zero (S := S1x512x3) hz3]
  simp only [View.readCov_unit_zero (S := S512x1) _ hz2, View.readCov_unit_zero (S := S512x3) _ hz2, View.readAt_eq_ld, harg2.read_unread, harg3.read_unread, harg4.read_unread, harg5.read_unread, harg8.read_unread, harg9.read_unread, harg10.read_unread, View.ld_unit_zero (S := S1x512x3) hz3, View.ld_unit_zero (S := S512x1) hz2, View.ld_unit_zero (S := S512x3) hz2]

/-! ## The three cases as steps on the running sums -/

/-- Column tile 0 leaves the step from the zero sums. -/
theorem scrA_eq (hc0 : cond0_0 i) (hc1 : ¬cond0_1 i) :
    scrA c i arg2 harg2 arg3 harg3 arg4 harg4 arg5 harg5 arg6 harg6 arg7 harg7 arg8 harg8 arg9 harg9 arg10 harg10 x0 x1 x2 x3 hc0 hc1 = accStep x0 x1 x2 x3 accZero :=
  Prod.ext (scrA_0 c i arg2 harg2 arg3 harg3 arg4 harg4 arg5 harg5 arg6 harg6 arg7 harg7 arg8 harg8 arg9 harg9 arg10 harg10 x0 x1 x2 x3 hc0 hc1)
    (Prod.ext (scrA_1 c i arg2 harg2 arg3 harg3 arg4 harg4 arg5 harg5 arg6 harg6 arg7 harg7 arg8 harg8 arg9 harg9 arg10 harg10 x0 x1 x2 x3 hc0 hc1) (scrA_2 c i arg2 harg2 arg3 harg3 arg4 harg4 arg5 harg5 arg6 harg6 arg7 harg7 arg8 harg8 arg9 harg9 arg10 harg10 x0 x1 x2 x3 hc0 hc1))

/-- Column tiles 1 to 14 leave the step from the sums carried in. -/
theorem scrB_eq (hc0 : ¬cond0_0 i) (hc1 : ¬cond0_1 i) :
    scrB c i arg2 harg2 arg3 harg3 arg4 harg4 arg5 harg5 arg6 harg6 arg7 harg7 arg8 harg8 arg9 harg9 arg10 harg10 x0 x1 x2 x3 xs0 xs1 xs2 hc0 hc1 = accStep x0 x1 x2 x3 (xs0, xs1, xs2) :=
  Prod.ext (scrB_0 c i arg2 harg2 arg3 harg3 arg4 harg4 arg5 harg5 arg6 harg6 arg7 harg7 arg8 harg8 arg9 harg9 arg10 harg10 x0 x1 x2 x3 xs0 xs1 xs2 hc0 hc1)
    (Prod.ext (scrB_1 c i arg2 harg2 arg3 harg3 arg4 harg4 arg5 harg5 arg6 harg6 arg7 harg7 arg8 harg8 arg9 harg9 arg10 harg10 x0 x1 x2 x3 xs0 xs1 xs2 hc0 hc1) (scrB_2 c i arg2 harg2 arg3 harg3 arg4 harg4 arg5 harg5 arg6 harg6 arg7 harg7 arg8 harg8 arg9 harg9 arg10 harg10 x0 x1 x2 x3 xs0 xs1 xs2 hc0 hc1))

/-- Column tile 15 leaves the two result blocks formed from the finished sums, and the finished sums. -/
theorem stC_eq (hc0 : ¬cond0_0 i) (hc1 : cond0_1 i) :
    stC c i arg2 harg2 arg3 harg3 arg4 harg4 arg5 harg5 arg6 harg6 arg7 harg7 arg8 harg8 arg9 harg9 arg10 harg10 x0 x1 x2 x3 xs0 xs1 xs2 hc0 hc1
      = (outDmom x0 (accStep x0 x1 x2 x3 (xs0, xs1, xs2)), outDx (accStep x0 x1 x2 x3 (xs0, xs1, xs2)), accStep x0 x1 x2 x3 (xs0, xs1, xs2)) :=
  Prod.ext (stC_4 c i arg2 harg2 arg3 harg3 arg4 harg4 arg5 harg5 arg6 harg6 arg7 harg7 arg8 harg8 arg9 harg9 arg10 harg10 x0 x1 x2 x3 xs0 xs1 xs2 hc0 hc1)
    (Prod.ext (stC_5 c i arg2 harg2 arg3 harg3 arg4 harg4 arg5 harg5 arg6 harg6 arg7 harg7 arg8 harg8 arg9 harg9 arg10 harg10 x0 x1 x2 x3 xs0 xs1 xs2 hc0 hc1)
      (Prod.ext (stC_s0 c i arg2 harg2 arg3 harg3 arg4 harg4 arg5 harg5 arg6 harg6 arg7 harg7 arg8 harg8 arg9 harg9 arg10 harg10 x0 x1 x2 x3 xs0 xs1 xs2 hc0 hc1)
        (Prod.ext (stC_s1 c i arg2 harg2 arg3 harg3 arg4 harg4 arg5 harg5 arg6 harg6 arg7 harg7 arg8 harg8 arg9 harg9 arg10 harg10 x0 x1 x2 x3 xs0 xs1 xs2 hc0 hc1) (stC_s2 c i arg2 harg2 arg3 harg3 arg4 harg4 arg5 harg5 arg6 harg6 arg7 harg7 arg8 harg8 arg9 harg9 arg10 harg10 x0 x1 x2 x3 xs0 xs1 xs2 hc0 hc1))))

end Pieces

end Cert.KernelIdeal.Fr

end
-- ==== Proof.Spec.lean ====
/-
  The mathematics both programs compute, written once over the two argument arrays read as functions into the
  extended reals: x the positions (8192 points in three coordinates) and p the momenta.

  For points n, m:  |x_n|² = Σ_d x_n,d²,  ⟨u_n, v_m⟩ = Σ_d u_n,d · v_m,d,
    the Gaussian weight  k(n, m) = exp(-γ · ((|x_n|² + |x_m|²) - 2·⟨x_n, x_m⟩)),
    the momentum-weighted weight  w(n, m) = k(n, m) · ⟨p_n, p_m⟩.
  The two results are
    dmom(n, d) = 2γ · (x_n,d · Σ_m w(n, m)  -  Σ_m w(n, m) · x_m,d)   and   dx(n, d) = Σ_m k(n, m) · p_m,d.
  The constants 2, -γ = -100, 2γ = 200 and -2γ = -200 are kept as the float patterns the programs carry.
-/
import Idealize.ShloMosaic.PureOps.Ideal.Laws
import Idealize.ShloMosaic.Lib.ValueIdx

open scoped BigOperators

noncomputable section

namespace Cert.Spec

open Idealize.ShloMosaic Idealize.ShloMosaic.ValueIdx

/-- One batch of 8192 points in three coordinates: the shape of both arguments and both results. -/
abbrev Pts : Shape := ⟨3, ![1, 8192, 3]⟩

/-- The float patterns of 2, -100, 200 and -200 as extended reals. -/
def two : EReal := Ideal.ofBits .f32 0x40000000#32
def negGamma : EReal := Ideal.ofBits .f32 0xC2C80000#32
def twoGamma : EReal := Ideal.ofBits .f32 0x43480000#32
def negTwoGamma : EReal := Ideal.ofBits .f32 0xC3480000#32

/-- ⟨u_n, v_m⟩: the inner product of point n of u with point m of v. -/
def inner (u v : Pts.Idx → EReal) (n m : Fin 8192) : EReal := ∑ d : Fin 3, u (ix3 0 n d) * v (ix3 0 m d)

/-- |x_n|², as the sum of squares the programs form. -/
def sq (x : Pts.Idx → EReal) (n : Fin 8192) : EReal := ∑ d : Fin 3, x (ix3 0 n d) * x (ix3 0 n d)

/-- The Gaussian weight of the pair (n, m). -/
def gauss (x : Pts.Idx → EReal) (n m : Fin 8192) : EReal :=
  Ideal.exp (negGamma * ((sq x n + sq x m) - two * inner x x n m))

/-- The Gaussian weight times the inner product of the two momenta. -/
def wgt (x p : Pts.Idx → EReal) (n m : Fin 8192) : EReal := gauss x n m * inner p p n m

/-- Σ_m w(n, m). -/
def rowSum (x p : Pts.Idx → EReal) (n : Fin 8192) : EReal := ∑ m : Fin 8192, wgt x p n m

/-- Σ_m w(n, m) · x_m,d. -/
def wpos (x p : Pts.Idx → EReal) (n : Fin 8192) (d : Fin 3) : EReal := ∑ m : Fin 8192, wgt x p n m * x (ix3 0 m d)

/-- Σ_m k(n, m) · p_m,d. -/
def kmom (x p : Pts.Idx → EReal) (n : Fin 8192) (d : Fin 3) : EReal := ∑ m : Fin 8192, gauss x n m * p (ix3 0 m d)

/-- The first result as the kernel forms it: 2γ · (x · rowSum - wpos). -/
def dmom (x p : Pts.Idx → EReal) : Pts.Idx → EReal :=
  fun i => twoGamma * (x (ix3 0 (i 1) (i 2)) * rowSum x p (i 1) - wpos x p (i 1) (i 2))

/-- The first result as the reference forms it: -((-2γ) · (x · rowSum - wpos)). -/
def dmomRef (x p : Pts.Idx → EReal) : Pts.Idx → EReal :=
  fun i => -(negTwoGamma * (x (ix3 0 (i 1) (i 2)) * rowSum x p (i 1) - wpos x p (i 1) (i 2)))

/-- The second result. -/
def dx (x p : Pts.Idx → EReal) : Pts.Idx → EReal := fun i => kmom x p (i 1) (i 2)

end Cert.Spec

end
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.KI.StepIdeal.lean ====
/-
  The kernel's per-point step read index by index at the extended reals.

  For a row tile (positions xi, momenta pi) and a column tile (xj, pj), with a the row inside the row tile, b the column
  inside the column tile and d the coordinate:
    the tile's Gaussian weight   g(a, b) = exp(-γ · ((|xi_a|² + |xj_b|²) - 2·⟨xi_a, xj_b⟩)),
    the tile's weight            w(a, b) = g(a, b) · ⟨pi_a, pj_b⟩.
  One point adds Σ_b w(a, b) to the first running sum, Σ_b w(a, b) · xj_b,d to the second and Σ_b g(a, b) · pj_b,d to
  the third; the running sums start at zero; the first result's block is 2γ · (xi_a,d · s1(a) - s2(a, d)) and the second
  result's block is s3(a, d).
-/
import proofs.«106366_j31361851195747_1_alg».proof.Proof.KI.Step
import proofs.«106366_j31361851195747_1_alg».proof.Proof.Spec
import proofs.«106366_j31361851195747_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.Fr

open Idealize.ShloMosaic Idealize.ShloMosaic.ValueIdx Cert.KernelIdeal Cert.KernelIdeal.Gen

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A shape cast between equal matrix shapes reads the operand at the same index. -/
theorem shapeCast_ab_ab_apply {a b : ℕ} (x : (⟨2, ![a, b]⟩ : Shape).Idx → α) (h : (⟨2, ![a, b]⟩ : Shape).ShapeCasts ⟨2, ![a, b]⟩)
    (i : Fin a) (j : Fin b) : shapeCast ⟨2, ![a, b]⟩ x h (ix2 i j) = x (ix2 i j) :=
  shapeCast_apply x h _ _ rfl

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A lane sum of an `[a, b]` array from the zero pattern reads, at row `i`, the sum over the row's `b` entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => exact Fin.ext rfl
  | ⟨1, _⟩ => exact Fin.ext rfl

/-- The tile's Gaussian weight of row a against column b, from the two position blocks. -/
def tGauss (xi xj : Vec Ideal S1x512x3 .f32) (a b : Fin 512) : EReal :=
  Ideal.exp (Cert.Spec.negGamma * (((∑ d : Fin 3, xi (ix3 0 a d) * xi (ix3 0 a d)) + (∑ d : Fin 3, xj (ix3 0 b d) * xj (ix3 0 b d)))
    - Cert.Spec.two * ∑ d : Fin 3, xi (ix3 0 a d) * xj (ix3 0 b d)))

/-- The tile's Gaussian weight times the inner product of the two momenta. -/
def tWgt (xi pi xj pj : Vec Ideal S1x512x3 .f32) (a b : Fin 512) : EReal :=
  tGauss xi xj a b * ∑ d : Fin 3, pi (ix3 0 a d) * pj (ix3 0 b d)

/-- A `[1, 512, 3]` block with its unit axis dropped reads, at `(a, d)`, the block at `(0, a, d)`. -/
theorem pay9_apply (x : Vec Ideal S1x512x3 .f32) (a : Fin 512) (d : Fin 3) : k0_pay9 x (ix2 a d) = x (ix3 0 a d) :=
  shapeCast_1ab_ab_apply x shapeCasts_S1x512x3_S512x3 a d

theorem pay10_apply (x : Vec Ideal S1x512x3 .f32) (a : Fin 512) (d : Fin 3) : k0_pay10 x (ix2 a d) = x (ix3 0 a d) :=
  shapeCast_1ab_ab_apply x shapeCasts_S1x512x3_S512x3 a d

theorem pay11_apply (x : Vec Ideal S1x512x3 .f32) (a : Fin 512) (d : Fin 3) : k0_pay11 x (ix2 a d) = x (ix3 0 a d) :=
  shapeCast_1ab_ab_apply x shapeCasts_S1x512x3_S512x3 a d

/-- The squared length of row `a` of a block: the lane sum of its entrywise square. -/
theorem sqRow_apply (y : FVec Ideal S512x3 .f32) (a : Fin 512) :
    multiReduction .add [1] S512 (mulf y y) 0x00000000#32 reduces_S512x3_S512 (.inl rfl) rfl (ix1 a)
      = ∑ d : Fin 3, y (ix2 a d) * y (ix2 a d) :=
  rowSum_apply (mulf y y) reduces_S512x3_S512 (.inl rfl) rfl a

/-- The product of a `[512, 3]` block with the transpose of another, at `(a, b)`: the inner product of row `a` of the
    first with row `b` of the second. -/
theorem gram_apply (y z : FVec Ideal S512x3 .f32) (a b : Fin 512) :
    matmul dot_S512x3_S3x512_S512x512_1_0_0_1_n_n (some .fp32) y
        (transpose S3x512 [1, 0] z transposes_S512x3_p1_0_S3x512) (constant S512x512 .f32 0x00000000#32) (ix2 a b)
      = ∑ d : Fin 3, y (ix2 a d) * z (ix2 b d) := by
  refine (Cert.Lib.PlainDot.matmul_zero_apply (M := 512) (K := 3) (N := 512) dot_S512x3_S3x512_S512x512_1_0_0_1_n_n
    rfl rfl rfl rfl rfl rfl (some .fp32) y (transpose S3x512 [1, 0] z transposes_S512x3_p1_0_S3x512) a b).trans ?_
  refine Finset.sum_congr rfl fun d _ => congrArg (y (ix2 a d) * ·) ?_
  exact transpose_ix2_apply z transposes_S512x3_p1_0_S3x512 d b

/-- The squared lengths of the row tile's rows, laid along the columns, read at `(a, b)`. -/
theorem sqCol_apply (y : FVec Ideal S512x3 .f32) (a b : Fin 512) :
    broadcastTo S512x512 (shapeCast S512x1 (multiReduction .add [1] S512 (mulf y y) 0x00000000#32 reduces_S512x3_S512 (.inl rfl) rfl)
        shapeCasts_S512_S512x1) broadcasts_S512x1_S512x512 (ix2 a b)
      = ∑ d : Fin 3, y (ix2 a d) * y (ix2 a d) := by
  refine (broadcastTo_a1_ab_apply _ broadcasts_S512x1_S512x512 a b).trans ?_
  refine (shapeCast_a_a1_apply _ shapeCasts_S512_S512x1 a (0 : Fin 1)).trans ?_
  exact sqRow_apply y a

/-- The squared lengths of the column tile's rows, laid along the rows, read at `(a, b)`. -/
theorem sqRowT_apply (y : FVec Ideal S512x3 .f32) (a b : Fin 512) :
    broadcastTo S512x512 (transpose S1x512 [1, 0] (shapeCast S512x1 (multiReduction .add [1] S512 (mulf y y) 0x00000000#32
        reduces_S512x3_S512 (.inl rfl) rfl) shapeCasts_S512_S512x1) transposes_S512x1_p1_0_S1x512) broadcasts_S1x512_S512x512 (ix2 a b)
      = ∑ d : Fin 3, y (ix2 b d) * y (ix2 b d) := by
  refine (broadcastTo_1b_ab_apply _ broadcasts_S1x512_S512x512 a b).trans ?_
  refine (transpose_ix2_apply _ transposes_S512x1_p1_0_S1x512 (0 : Fin 1) b).trans ?_
  refine (shapeCast_a_a1_apply _ shapeCasts_S512_S512x1 b (0 : Fin 1)).trans ?_
  exact sqRow_apply y b

/-- The Gaussian tile at `(a, b)`. -/
theorem pay12_apply (xi xj : Vec Ideal S1x512x3 .f32) (a b : Fin 512) : k0_pay12 xi xj (ix2 a b) = tGauss xi xj a b := by
  unfold tGauss
  refine congrArg Ideal.exp ?_
  refine congrArg (Cert.Spec.negGamma * ·) ?_
  refine congrArg₂ (· - ·) (congrArg₂ (· + ·) ?_ ?_) (congrArg (Cert.Spec.two * ·) ?_)
  · refine (sqCol_apply (k0_pay9 xi) a b).trans ?_
    exact Finset.sum_congr rfl fun d _ => by rw [pay9_apply]
  · refine (sqRowT_apply (k0_pay10 xj) a b).trans ?_
    exact Finset.sum_congr rfl fun d _ => by rw [pay10_apply]
  · refine (gram_apply (k0_pay9 xi) (k0_pay10 xj) a b).trans ?_
    exact Finset.sum_congr rfl fun d _ => by rw [pay9_apply, pay10_apply]

/-- The weight tile at `(a, b)`: the Gaussian weight times the inner product of the two momenta. -/
theorem pay13_apply (xi pi xj pj : Vec Ideal S1x512x3 .f32) (a b : Fin 512) :
    k0_pay13 xi pi xj pj (ix2 a b) = tWgt xi pi xj pj a b := by
  unfold tWgt
  refine congrArg₂ (· * ·) (pay12_apply xi xj a b) ?_
  refine (gram_apply (k0_pay9 pi) (k0_pay11 pj) a b).trans ?_
  exact Finset.sum_congr rfl fun d _ => by rw [pay9_apply, pay11_apply]

/-- The weight tile's row sums. -/
theorem pay14_apply (xi pi xj pj : Vec Ideal S1x512x3 .f32) (a : Fin 512) :
    k0_pay14 xi pi xj pj (ix1 a) = ∑ b : Fin 512, tWgt xi pi xj pj a b := by
  refine (rowSum_apply (k0_pay13 xi pi xj pj) reduces_S512x512_S512 (.inl rfl) rfl a).trans ?_
  exact Finset.sum_congr rfl fun b _ => pay13_apply xi pi xj pj a b

/-- The first running sum's update at row `a`: the old value plus the new row sum. -/
theorem pay1_apply (old : Vec Ideal S512x1 .f32) (new : FVec Ideal S512 .f32) (a : Fin 512) :
    k0_pay1 old new (ix2 a 0) = old (ix2 a 0) + new (ix1 a) := by
  refine (shapeCast_ab_ab_apply (addf old (shapeCast S512x1 new shapeCasts_S512_S512x1)) shapeCasts_S512x1_S512x1 a (0 : Fin 1)).trans ?_
  refine congrArg (old (ix2 a 0) + ·) ?_
  exact shapeCast_a_a1_apply new shapeCasts_S512_S512x1 a (0 : Fin 1)

/-- The product of a `[512, 512]` tile with a `[512, 3]` block, both rounded to the shorter format (the identity
    at the ideal values), at `(a, d)`. -/
theorem tileDot_apply (w : FVec Ideal S512x512 .f32) (y : FVec Ideal S512x3 .f32) (a : Fin 512) (d : Fin 3) :
    matmul dot_S512x512_S512x3_S512x3_1_0_0_1_n_n none (truncf .bf16 w bitsLt_bf16_f32) (truncf .bf16 y bitsLt_bf16_f32)
        (constant S512x3 .f32 0x00000000#32) (ix2 a d)
      = ∑ b : Fin 512, w (ix2 a b) * y (ix2 b d) :=
  Cert.Lib.PlainDot.matmul_zero_apply (M := 512) (K := 512) (N := 3) dot_S512x512_S512x3_S512x3_1_0_0_1_n_n
    rfl rfl rfl rfl rfl rfl none (truncf .bf16 w bitsLt_bf16_f32) (truncf .bf16 y bitsLt_bf16_f32) a d

/-- The second running sum's update at `(a, d)`. -/
theorem pay2_apply (y : FVec Ideal S512x3 .f32) (w : FVec Ideal S512x512 .f32) (old : Vec Ideal S512x3 .f32) (a : Fin 512) (d : Fin 3) :
    k0_pay2 y w old (ix2 a d) = old (ix2 a d) + ∑ b : Fin 512, w (ix2 a b) * y (ix2 b d) := by
  refine (shapeCast_ab_ab_apply (addf old (matmul dot_S512x512_S512x3_S512x3_1_0_0_1_n_n none (truncf .bf16 w bitsLt_bf16_f32)
    (truncf .bf16 y bitsLt_bf16_f32) (constant S512x3 .f32 0x00000000#32))) shapeCasts_S512x3_S512x3 a d).trans ?_
  exact congrArg (old (ix2 a d) + ·) (tileDot_apply w y a d)

/-- The third running sum's update at `(a, d)`. -/
theorem pay3_apply (y : FVec Ideal S512x3 .f32) (w : FVec Ideal S512x512 .f32) (old : Vec Ideal S512x3 .f32) (a : Fin 512) (d : Fin 3) :
    k0_pay3 y w old (ix2 a d) = old (ix2 a d) + ∑ b : Fin 512, w (ix2 a b) * y (ix2 b d) := by
  refine (shapeCast_ab_ab_apply (addf old (matmul dot_S512x512_S512x3_S512x3_1_0_0_1_n_n none (truncf .bf16 w bitsLt_bf16_f32)
    (truncf .bf16 y bitsLt_bf16_f32) (constant S512x3 .f32 0x00000000#32))) shapeCasts_S512x3_S512x3 a d).trans ?_
  exact congrArg (old (ix2 a d) + ·) (tileDot_apply w y a d)

/-- The first result's block at `(0, a, d)`. -/
theorem pay4_apply (y : FVec Ideal S512x3 .f32) (s : Vec Ideal S512x1 .f32) (w : Vec Ideal S512x3 .f32) (a : Fin 512) (d : Fin 3) :
    k0_pay4 y s w (ix3 0 a d) = Cert.Spec.twoGamma * (y (ix2 a d) * s (ix2 a 0) - w (ix2 a d)) := by
  refine (shapeCast_ab_1ab_apply (mulf (broadcast S512x3 (Scalar.ofBits (F := Ideal) .f32 0x43480000#32))
    (subf (mulf y (broadcastTo S512x3 s broadcasts_S512x1_S512x3)) w)) shapeCasts_S512x3_S1x512x3 (0 : Fin 1) a d).trans ?_
  refine congrArg (Cert.Spec.twoGamma * ·) ?_
  refine congrArg (· - w (ix2 a d)) ?_
  exact congrArg (y (ix2 a d) * ·) (broadcastTo_a1_ab_apply s broadcasts_S512x1_S512x3 a d)

/-- The second result's block at `(0, a, d)`. -/
theorem pay5_apply (w : Vec Ideal S512x3 .f32) (a : Fin 512) (d : Fin 3) : k0_pay5 w (ix3 0 a d) = w (ix2 a d) :=
  shapeCast_ab_1ab_apply w shapeCasts_S512x3_S1x512x3 (0 : Fin 1) a d

theorem accZero_fst (a : Fin 512) : (accZero (F := Ideal)).1 (ix2 a 0) = 0 :=
  (shapeCast_ab_ab_apply (broadcast S512x1 (Scalar.ofBits (F := Ideal) .f32 0x00000000#32)) shapeCasts_S512x1_S512x1 a (0 : Fin 1)).trans
    Ideal.ofBits_zero_f32

theorem accZero_snd (a : Fin 512) (d : Fin 3) : (accZero (F := Ideal)).2.1 (ix2 a d) = 0 :=
  (shapeCast_ab_ab_apply (broadcast S512x3 (Scalar.ofBits (F := Ideal) .f32 0x00000000#32)) shapeCasts_S512x3_S512x3 a d).trans
    Ideal.ofBits_zero_f32

theorem accZero_trd (a : Fin 512) (d : Fin 3) : (accZero (F := Ideal)).2.2 (ix2 a d) = 0 :=
  (shapeCast_ab_ab_apply (broadcast S512x3 (Scalar.ofBits (F := Ideal) .f32 0x00000000#32)) shapeCasts_S512x3_S512x3 a d).trans
    Ideal.ofBits_zero_f32

theorem accStep_fst (xi pi xj pj : Vec Ideal S1x512x3 .f32) (acc : Acc Ideal) (a : Fin 512) :
    (accStep xi pi xj pj acc).1 (ix2 a 0) = acc.1 (ix2 a 0) + ∑ b : Fin 512, tWgt xi pi xj pj a b :=
  (pay1_apply acc.1 (k0_pay14 xi pi xj pj) a).trans (congrArg (acc.1 (ix2 a 0) + ·) (pay14_apply xi pi xj pj a))

theorem accStep_snd (xi pi xj pj : Vec Ideal S1x512x3 .f32) (acc : Acc Ideal) (a : Fin 512) (d : Fin 3) :
    (accStep xi pi xj pj acc).2.1 (ix2 a d) = acc.2.1 (ix2 a d) + ∑ b : Fin 512, tWgt xi pi xj pj a b * xj (ix3 0 b d) := by
  refine (pay2_apply (k0_pay10 xj) (k0_pay13 xi pi xj pj) acc.2.1 a d).trans ?_
  refine congrArg (acc.2.1 (ix2 a d) + ·) ?_
  exact Finset.sum_congr rfl fun b _ => by rw [pay13_apply, pay10_apply]

theorem accStep_trd (xi pi xj pj : Vec Ideal S1x512x3 .f32) (acc : Acc Ideal) (a : Fin 512) (d : Fin 3) :
    (accStep xi pi xj pj acc).2.2 (ix2 a d) = acc.2.2 (ix2 a d) + ∑ b : Fin 512, tGauss xi xj a b * pj (ix3 0 b d) := by
  refine (pay3_apply (k0_pay11 pj) (k0_pay12 xi xj) acc.2.2 a d).trans ?_
  refine congrArg (acc.2.2 (ix2 a d) + ·) ?_
  exact Finset.sum_congr rfl fun b _ => by rw [pay12_apply, pay11_apply]

theorem outDmom_apply (xi : Vec Ideal S1x512x3 .f32) (acc : Acc Ideal) (a : Fin 512) (d : Fin 3) :
    outDmom xi acc (ix3 0 a d) = Cert.Spec.twoGamma * (xi (ix3 0 a d) * acc.1 (ix2 a 0) - acc.2.1 (ix2 a d)) := by
  refine (pay4_apply (k0_pay9 xi) acc.1 acc.2.1 a d).trans ?_
  rw [pay9_apply]

theorem outDx_apply (acc : Acc Ideal) (a : Fin 512) (d : Fin 3) : outDx acc (ix3 0 a d) = acc.2.2 (ix2 a d) :=
  pay5_apply acc.2.2 a d

end Cert.KernelIdeal.Fr

end
-- ==== Proof.KI.Tile.lean ====
/-
  Row tiles of an array of 8192 points: tile r is the points 512·r … 512·r + 511, as a 1 × 512 × 3 block.
-/
import proofs.«106366_j31361851195747_1_alg».proof.Proof.KI.Step
import proofs.«106366_j31361851195747_1_alg».proof.Proof.Spec
import Idealize.ShloMosaic.Lib.ValueIdx

noncomputable section

namespace Cert.KernelIdeal.Fr

open Idealize.ShloMosaic Idealize.ShloMosaic.ValueIdx Cert.KernelIdeal

/-- Point a of tile r, as a point of the whole array. -/
def rowOf (r : Nat) (hr : r < 16) (a : Fin 512) : Fin 8192 := ⟨512 * r + a.val, by have := a.isLt; omega⟩

@[simp] theorem rowOf_val (r : Nat) (hr : r < 16) (a : Fin 512) : (rowOf r hr a).val = 512 * r + a.val := rfl

/-- Tile r of the array u. -/
def tile (u : Cert.Spec.Pts.Idx → EReal) (r : Nat) (hr : r < 16) : Vec Ideal S1x512x3 .f32 :=
  fun y => u (ix3 0 (rowOf r hr (y 1)) (y 2))

theorem tile_apply (u : Cert.Spec.Pts.Idx → EReal) (r : Nat) (hr : r < 16) (a : Fin 512) (d : Fin 3) :
    tile u r hr (ix3 0 a d) = u (ix3 0 (rowOf r hr a) d) := rfl

end Cert.KernelIdeal.Fr

end
-- ==== Proof.SpecSums.lean ====
/-
  Algebra on the extended reals over the specification.

  The two patterns the programs carry for 2γ and -2γ are the reals 200 and -200, so the reference's form
  -((-2γ) · y) of the first result is the kernel's form 2γ · y for every extended real y, finite or not.

  A sum over the 8192 points is accumulated in sixteen column tiles of 512 points each: the partial sum after J
  tiles is the sum over the points below 512·J; it starts at 0, each tile adds its 512 terms, and after sixteen
  tiles it is the whole sum.
-/
import proofs.«106366_j31361851195747_1_alg».proof.Proof.Spec
import Mathlib.Data.EReal.Operations
import Mathlib.Algebra.BigOperators.Group.Finset.Basic

open scoped BigOperators

noncomputable section

namespace Cert.Spec

open Idealize.ShloMosaic Idealize.ShloMosaic.ValueIdx

/-- 200 and -200 as reals. -/
theorem twoGamma_eq : twoGamma = ((200 : ℝ) : EReal) := by
  simp [twoGamma, Ideal.ofBits, Ideal.ieee, -EReal.coe_mul]; norm_num

theorem negTwoGamma_eq : negTwoGamma = ((-200 : ℝ) : EReal) := by
  simp [negTwoGamma, Ideal.ofBits, Ideal.ieee, -EReal.coe_mul]; norm_num

/-- -((-200)·y) = 200·y for every extended real y: the sign moves onto the constant, and -(-200) = 200. -/
theorem neg_negTwoGamma_mul (y : EReal) : -(negTwoGamma * y) = twoGamma * y := by
  rw [negTwoGamma_eq, twoGamma_eq, ← EReal.neg_mul, ← EReal.coe_neg, neg_neg]

theorem dmomRef_eq (x p : Pts.Idx → EReal) : dmomRef x p = dmom x p := by
  funext i
  exact neg_negTwoGamma_mul _

/-- The sum of g over the indices below 512·J: what sixteen column tiles have accumulated after the first J. -/
def partialSum (g : Fin 8192 → EReal) (J : Nat) : EReal := ∑ m ∈ Finset.univ.filter (fun m : Fin 8192 => m.val < 512 * J), g m

/-- No index is below 0. -/
theorem partialSum_zero (g : Fin 8192 → EReal) : partialSum g 0 = 0 := by
  simp [partialSum]

/-- The indices below 512·(J+1) are those below 512·J together with the 512 indices 512·J + b, b < 512; the two
    sets are disjoint and b ↦ 512·J + b is injective. -/
theorem partialSum_succ (g : Fin 8192 → EReal) (J : Nat) (hJ : J < 16) :
    partialSum g (J + 1) = partialSum g J + ∑ b : Fin 512, g ⟨512 * J + b.val, by omega⟩ := by
  classical
  have hset : Finset.univ.filter (fun m : Fin 8192 => m.val < 512 * (J + 1))
      = Finset.univ.filter (fun m : Fin 8192 => m.val < 512 * J)
        ∪ Finset.univ.image (fun b : Fin 512 => (⟨512 * J + b.val, by omega⟩ : Fin 8192)) := by
    ext m
    simp only [Finset.mem_filter, Finset.mem_univ, true_and, Finset.mem_union, Finset.mem_image]
    constructor
    · intro h
      by_cases hm : m.val < 512 * J
      · exact Or.inl hm
      · exact Or.inr ⟨⟨m.val - 512 * J, by omega⟩, Fin.ext (by simp only []; omega)⟩
    · rintro (h | ⟨b, hb⟩)
      · omega
      · have := congrArg Fin.val hb
        simp only [] at this
        omega
  have hdisj : Disjoint (Finset.univ.filter (fun m : Fin 8192 => m.val < 512 * J))
      (Finset.univ.image (fun b : Fin 512 => (⟨512 * J + b.val, by omega⟩ : Fin 8192))) := by
    rw [Finset.disjoint_left]
    intro m hm hm'
    simp only [Finset.mem_filter, Finset.mem_univ, true_and] at hm
    obtain ⟨b, _, hb⟩ := Finset.mem_image.mp hm'
    have := congrArg Fin.val hb
    simp only [] at this
    omega
  have hinj : Set.InjOn (fun b : Fin 512 => (⟨512 * J + b.val, by omega⟩ : Fin 8192))
      (Finset.univ : Finset (Fin 512)) := by
    intro a _ b _ hab
    have := congrArg Fin.val hab
    simp only [] at this
    exact Fin.ext (by omega)
  unfold partialSum
  rw [hset, Finset.sum_union hdisj, Finset.sum_image hinj]

/-- Every index is below 512·16 = 8192. -/
theorem partialSum_full (g : Fin 8192 → EReal) : partialSum g 16 = ∑ m : Fin 8192, g m := by
  unfold partialSum
  rw [Finset.filter_true_of_mem (fun m _ => by have := m.isLt; omega)]

end Cert.Spec

end
-- ==== Proof.KI.ValueMath.lean ====
/-
  The running sums in closed form.

  Point n of the 16 × 16 grid has row tile n / 16 and column tile n % 16. The three running sums restart from zero at
  every column tile 0 and each point adds its tile's 512 terms, whose summand depends on the row tile only through the
  row's point 512·(n / 16) + a of the whole array. So after the point n the sums are the partial sums, over the first
  n % 16 + 1 column tiles, of  w(row, m),  w(row, m) · x_m,d  and  k(row, m) · p_m,d;  at column tile 15 these are the
  whole sums, and the two result blocks are the specification's dmom and dx at the row's point.
-/
import proofs.«106366_j31361851195747_1_alg».proof.Proof.KI.StepIdeal
import proofs.«106366_j31361851195747_1_alg».proof.Proof.KI.Tile
import proofs.«106366_j31361851195747_1_alg».proof.Proof.SpecSums

open scoped BigOperators

noncomputable section

namespace Cert.KernelIdeal.Fr

open Idealize.ShloMosaic Idealize.ShloMosaic.ValueIdx Cert.KernelIdeal

/-- The running sums after the point at position n: reset at column tile 0, then one step. -/
def accAt (x p : Cert.Spec.Pts.Idx → EReal) : (n : ℕ) → n < 256 → Acc Ideal
  | 0, _ => accStep (tile x 0 (by omega)) (tile p 0 (by omega)) (tile x 0 (by omega)) (tile p 0 (by omega)) accZero
  | n + 1, h => accStep (tile x ((n + 1) / 16) (by omega)) (tile p ((n + 1) / 16) (by omega)) (tile x ((n + 1) % 16) (by omega)) (tile p ((n + 1) % 16) (by omega))
      (if (n + 1) % 16 = 0 then accZero else accAt x p n (by omega))

theorem accAt_reset (x p : Cert.Spec.Pts.Idx → EReal) (n : ℕ) (hn : n < 256) (h0 : n % 16 = 0) :
    accAt x p n hn = accStep (tile x (n / 16) (by omega)) (tile p (n / 16) (by omega)) (tile x (n % 16) (by omega)) (tile p (n % 16) (by omega)) accZero := by
  cases n with
  | zero => rfl
  | succ m => rw [accAt, if_pos h0]

theorem accAt_step (x p : Cert.Spec.Pts.Idx → EReal) (n : ℕ) (hn : n < 256) (h0 : ¬n % 16 = 0) :
    accAt x p n hn = accStep (tile x (n / 16) (by omega)) (tile p (n / 16) (by omega)) (tile x (n % 16) (by omega)) (tile p (n % 16) (by omega)) (accAt x p (n - 1) (by omega)) := by
  cases n with
  | zero => exact absurd rfl h0
  | succ m => rw [accAt, if_neg h0]; rfl

/-- The same tile and the same row give the same point. -/
theorem rowOf_congr {r r' : ℕ} (e : r = r') (hr : r < 16) (hr' : r' < 16) (a : Fin 512) : rowOf r hr a = rowOf r' hr' a := by
  subst e; rfl

/-- The tile's Gaussian weight is the specification's, at the two points of the whole array. -/
theorem tGauss_tile (x : Cert.Spec.Pts.Idx → EReal) (r c : ℕ) (hr : r < 16) (hc : c < 16) (a b : Fin 512) :
    tGauss (tile x r hr) (tile x c hc) a b = Cert.Spec.gauss x (rowOf r hr a) (rowOf c hc b) := rfl

/-- The tile's weight is the specification's, at the two points of the whole array. -/
theorem tWgt_tile (x p : Cert.Spec.Pts.Idx → EReal) (r c : ℕ) (hr : r < 16) (hc : c < 16) (a b : Fin 512) :
    tWgt (tile x r hr) (tile p r hr) (tile x c hc) (tile p c hc) a b = Cert.Spec.wgt x p (rowOf r hr a) (rowOf c hc b) := rfl

/-- A quantity that restarts from zero at every column tile 0 and otherwise grows by the column tile's 512 terms of a
    summand that depends only on the row tile is, after column tile c, the partial sum over the first c + 1 tiles. -/
theorem closed_form (S : (n : ℕ) → n < 256 → EReal) (g : (n : ℕ) → n < 256 → Fin 8192 → EReal)
    (hg : ∀ n hn (h0 : ¬n % 16 = 0), g (n - 1) (by omega) = g n hn)
    (hreset : ∀ n hn, n % 16 = 0 → S n hn = 0 + ∑ b : Fin 512, g n hn ⟨512 * (n % 16) + b.val, by omega⟩)
    (hstep : ∀ n hn (h0 : ¬n % 16 = 0), S n hn = S (n - 1) (by omega) + ∑ b : Fin 512, g n hn ⟨512 * (n % 16) + b.val, by omega⟩) :
    ∀ n hn, S n hn = Cert.Spec.partialSum (g n hn) (n % 16 + 1) := by
  have base : ∀ n hn, n % 16 = 0 → S n hn = Cert.Spec.partialSum (g n hn) (n % 16 + 1) := by
    intro n hn h0
    have e : Cert.Spec.partialSum (g n hn) (n % 16) = 0 := by rw [h0]; exact Cert.Spec.partialSum_zero _
    rw [hreset n hn h0, Cert.Spec.partialSum_succ (g n hn) (n % 16) (by omega), e]
  intro n
  induction n with
  | zero => intro hn; exact base 0 hn rfl
  | succ m ih =>
    intro hn
    by_cases h0 : (m + 1) % 16 = 0
    · exact base (m + 1) hn h0
    · have e : Cert.Spec.partialSum (g (m + 1) hn) ((m + 1) % 16) = S (m + 1 - 1) (by omega) := by
        have h1 : (m + 1) % 16 = m % 16 + 1 := by omega
        rw [h1, ← hg (m + 1) hn h0]
        exact (ih (by omega)).symm
      rw [hstep (m + 1) hn h0, Cert.Spec.partialSum_succ (g (m + 1) hn) ((m + 1) % 16) (by omega), e]

theorem accAt_fst (x p : Cert.Spec.Pts.Idx → EReal) (n : ℕ) (hn : n < 256) (a : Fin 512) :
    (accAt x p n hn).1 (ix2 a 0) = Cert.Spec.partialSum (fun m' => Cert.Spec.wgt x p (rowOf (n / 16) (by omega) a) m') (n % 16 + 1) := by
  refine closed_form (fun n hn => (accAt x p n hn).1 (ix2 a 0))
    (fun n hn m' => Cert.Spec.wgt x p (rowOf (n / 16) (by omega) a) m') ?_ ?_ ?_ n hn
  · intro n hn h0
    funext m'
    exact congrArg (fun q => Cert.Spec.wgt x p q m') (rowOf_congr (by omega) _ _ a)
  · intro n hn h0
    show (accAt x p n hn).1 (ix2 a 0) = _
    rw [accAt_reset x p n hn h0, accStep_fst, accZero_fst]
    rfl
  · intro n hn h0
    show (accAt x p n hn).1 (ix2 a 0) = _
    rw [accAt_step x p n hn h0, accStep_fst]
    rfl

theorem accAt_snd (x p : Cert.Spec.Pts.Idx → EReal) (n : ℕ) (hn : n < 256) (a : Fin 512) (d : Fin 3) :
    (accAt x p n hn).2.1 (ix2 a d) = Cert.Spec.partialSum (fun m' => Cert.Spec.wgt x p (rowOf (n / 16) (by omega) a) m' * x (ix3 0 m' d)) (n % 16 + 1) := by
  refine closed_form (fun n hn => (accAt x p n hn).2.1 (ix2 a d))
    (fun n hn m' => Cert.Spec.wgt x p (rowOf (n / 16) (by omega) a) m' * x (ix3 0 m' d)) ?_ ?_ ?_ n hn
  · intro n hn h0
    funext m'
    exact congrArg (fun q => Cert.Spec.wgt x p q m' * x (ix3 0 m' d)) (rowOf_congr (by omega) _ _ a)
  · intro n hn h0
    show (accAt x p n hn).2.1 (ix2 a d) = _
    rw [accAt_reset x p n hn h0, accStep_snd, accZero_snd]
    rfl
  · intro n hn h0
    show (accAt x p n hn).2.1 (ix2 a d) = _
    rw [accAt_step x p n hn h0, accStep_snd]
    rfl

theorem accAt_trd (x p : Cert.Spec.Pts.Idx → EReal) (n : ℕ) (hn : n < 256) (a : Fin 512) (d : Fin 3) :
    (accAt x p n hn).2.2 (ix2 a d) = Cert.Spec.partialSum (fun m' => Cert.Spec.gauss x (rowOf (n / 16) (by omega) a) m' * p (ix3 0 m' d)) (n % 16 + 1) := by
  refine closed_form (fun n hn => (accAt x p n hn).2.2 (ix2 a d))
    (fun n hn m' => Cert.Spec.gauss x (rowOf (n / 16) (by omega) a) m' * p (ix3 0 m' d)) ?_ ?_ ?_ n hn
  · intro n hn h0
    funext m'
    exact congrArg (fun q => Cert.Spec.gauss x q m' * p (ix3 0 m' d)) (rowOf_congr (by omega) _ _ a)
  · intro n hn h0
    show (accAt x p n hn).2.2 (ix2 a d) = _
    rw [accAt_reset x p n hn h0, accStep_trd, accZero_trd]
    rfl
  · intro n hn h0
    show (accAt x p n hn).2.2 (ix2 a d) = _
    rw [accAt_step x p n hn h0, accStep_trd]
    rfl

theorem outDmom_accAt (x p : Cert.Spec.Pts.Idx → EReal) (n : ℕ) (hn : n < 256) (h15 : n % 16 = 15) (a : Fin 512) (d : Fin 3) :
    outDmom (tile x (n / 16) (by omega)) (accAt x p n hn) (ix3 0 a d) = Cert.Spec.dmom x p (ix3 0 (rowOf (n / 16) (by omega) a) d) := by
  have e : n % 16 + 1 = 16 := by omega
  rw [outDmom_apply, accAt_fst, accAt_snd, e, Cert.Spec.partialSum_full, Cert.Spec.partialSum_full]
  rfl

theorem outDx_accAt (x p : Cert.Spec.Pts.Idx → EReal) (n : ℕ) (hn : n < 256) (h15 : n % 16 = 15) (a : Fin 512) (d : Fin 3) :
    outDx (accAt x p n hn) (ix3 0 a d) = Cert.Spec.dx x p (ix3 0 (rowOf (n / 16) (by omega) a) d) := by
  have e : n % 16 + 1 = 16 := by omega
  rw [outDx_apply, accAt_trd, e, Cert.Spec.partialSum_full]
  rfl

end Cert.KernelIdeal.Fr

end
-- ==== Proof.KI.Blocks.lean ====
/-
  The windows' blocks of the pipeline, read as row tiles of whole arrays.

  The grid is 16 × 16: point t has row tile t / 16 and column tile t % 16. Every window cuts its array of 8192 points
  into sixteen blocks of 512 points; a block's element (0, a, d) is the array's element (0, 512·r + a, d), r the block's
  index along the points. Windows 0, 1 and the two result windows 4, 5 take block t / 16, windows 2 and 3 block t % 16.
  The results are written back at the points with column tile 15, and point 16·r + 15 writes back block r, so the
  sixteen written blocks cover every index of a result array.
-/
import proofs.«106366_j31361851195747_1_alg».proof.Proof.KI.Runs
import proofs.«106366_j31361851195747_1_alg».proof.Proof.KI.Tile
import Idealize.ShloMosaic.Lib.Pipeline.Value
import Idealize.ShloMosaic.Lib.ValueIdx

set_option maxRecDepth 16384

noncomputable section

namespace Cert.KernelIdeal.Fr

open Idealize.ShloMosaic Idealize.ShloMosaic.ValueIdx Cert.KernelIdeal Cert.KernelIdeal.Gen

variable (m : (ℓ : Loc nD τ sig) → Buf (Elt Ideal) ℓ) (c : Dev nD)

/-- The grid has 256 points. -/
theorem blk_point_lt (t : Fin cfg0.N) : t.val < 256 := by have := t.isLt; have h : cfg0.N = 256 := N_0; omega

/-! ## The printed index maps, decided over the grid -/

/-- Windows 0, 1, 4 and 5 take block (0, t / 16, 0). -/
theorem blk_idx0 : ∀ t : Fin cfg0.N, win0_0.index t (0 : Fin 3) = 0 ∧ win0_0.index t (1 : Fin 3) = t.val / 16 ∧ win0_0.index t (2 : Fin 3) = 0 :=
  (by decide +kernel : ∀ t : Fin grid0.N, _)
theorem blk_idx1 : ∀ t : Fin cfg0.N, win0_1.index t (0 : Fin 3) = 0 ∧ win0_1.index t (1 : Fin 3) = t.val / 16 ∧ win0_1.index t (2 : Fin 3) = 0 :=
  (by decide +kernel : ∀ t : Fin grid0.N, _)
theorem blk_idx4 : ∀ t : Fin cfg0.N, win0_4.index t (0 : Fin 3) = 0 ∧ win0_4.index t (1 : Fin 3) = t.val / 16 ∧ win0_4.index t (2 : Fin 3) = 0 :=
  (by decide +kernel : ∀ t : Fin grid0.N, _)
theorem blk_idx5 : ∀ t : Fin cfg0.N, win0_5.index t (0 : Fin 3) = 0 ∧ win0_5.index t (1 : Fin 3) = t.val / 16 ∧ win0_5.index t (2 : Fin 3) = 0 :=
  (by decide +kernel : ∀ t : Fin grid0.N, _)
/-- Windows 2 and 3 take block (0, t % 16, 0). -/
theorem blk_idx2 : ∀ t : Fin cfg0.N, win0_2.index t (0 : Fin 3) = 0 ∧ win0_2.index t (1 : Fin 3) = t.val % 16 ∧ win0_2.index t (2 : Fin 3) = 0 :=
  (by decide +kernel : ∀ t : Fin grid0.N, _)
theorem blk_idx3 : ∀ t : Fin cfg0.N, win0_3.index t (0 : Fin 3) = 0 ∧ win0_3.index t (1 : Fin 3) = t.val % 16 ∧ win0_3.index t (2 : Fin 3) = 0 :=
  (by decide +kernel : ∀ t : Fin grid0.N, _)

/-! ## The input windows' blocks

  A block's coordinate in the array is the block index times the block size plus the coordinate inside the block. -/

theorem iblk0_eq (t : Fin cfg0.N) : (iblk (F := Ideal) m c 0 t : Vec Ideal S1x512x3 .f32) = tile (V m c main_arg1) (t.val / 16) (by have := t.isLt; have : cfg0.N = 256 := N_0; omega) := by
  funext y
  obtain ⟨e0, e1, e2⟩ := blk_idx0 t
  show V m c main_arg1 (((cfg0.win 0).blk t).view.emb y) = V m c main_arg1 (ix3 0 (rowOf (t.val / 16) _ (y 1)) (y 2))
  refine congrArg _ ?_
  funext a; apply Fin.ext
  match a with
  | ⟨0, _⟩ => show win0_0.index t (0 : Fin 3) * 1 + 1 * (y 0).val = 0; have hy : (y 0).val < 1 := (y 0).isLt; omega
  | ⟨1, _⟩ => show win0_0.index t (1 : Fin 3) * 512 + 1 * (y 1).val = 512 * (t.val / 16) + (y 1).val; omega
  | ⟨2, _⟩ => show win0_0.index t (2 : Fin 3) * 3 + 1 * (y 2).val = (y 2).val; omega

theorem iblk1_eq (t : Fin cfg0.N) : (iblk (F := Ideal) m c 1 t : Vec Ideal S1x512x3 .f32) = tile (V m c main_arg0) (t.val / 16) (by have := t.isLt; have : cfg0.N = 256 := N_0; omega) := by
  funext y
  obtain ⟨e0, e1, e2⟩ := blk_idx1 t
  show V m c main_arg0 (((cfg0.win 1).blk t).view.emb y) = V m c main_arg0 (ix3 0 (rowOf (t.val / 16) _ (y 1)) (y 2))
  refine congrArg _ ?_
  funext a; apply Fin.ext
  match a with
  | ⟨0, _⟩ => show win0_1.index t (0 : Fin 3) * 1 + 1 * (y 0).val = 0; have hy : (y 0).val < 1 := (y 0).isLt; omega
  | ⟨1, _⟩ => show win0_1.index t (1 : Fin 3) * 512 + 1 * (y 1).val = 512 * (t.val / 16) + (y 1).val; omega
  | ⟨2, _⟩ => show win0_1.index t (2 : Fin 3) * 3 + 1 * (y 2).val = (y 2).val; omega

theorem iblk2_eq (t : Fin cfg0.N) : (iblk (F := Ideal) m c 2 t : Vec Ideal S1x512x3 .f32) = tile (V m c main_arg1) (t.val % 16) (by omega) := by
  funext y
  obtain ⟨e0, e1, e2⟩ := blk_idx2 t
  show V m c main_arg1 (((cfg0.win 2).blk t).view.emb y) = V m c main_arg1 (ix3 0 (rowOf (t.val % 16) _ (y 1)) (y 2))
  refine congrArg _ ?_
  funext a; apply Fin.ext
  match a with
  | ⟨0, _⟩ => show win0_2.index t (0 : Fin 3) * 1 + 1 * (y 0).val = 0; have hy : (y 0).val < 1 := (y 0).isLt; omega
  | ⟨1, _⟩ => show win0_2.index t (1 : Fin 3) * 512 + 1 * (y 1).val = 512 * (t.val % 16) + (y 1).val; omega
  | ⟨2, _⟩ => show win0_2.index t (2 : Fin 3) * 3 + 1 * (y 2).val = (y 2).val; omega

theorem iblk3_eq (t : Fin cfg0.N) : (iblk (F := Ideal) m c 3 t : Vec Ideal S1x512x3 .f32) = tile (V m c main_arg0) (t.val % 16) (by omega) := by
  funext y
  obtain ⟨e0, e1, e2⟩ := blk_idx3 t
  show V m c main_arg0 (((cfg0.win 3).blk t).view.emb y) = V m c main_arg0 (ix3 0 (rowOf (t.val % 16) _ (y 1)) (y 2))
  refine congrArg _ ?_
  funext a; apply Fin.ext
  match a with
  | ⟨0, _⟩ => show win0_3.index t (0 : Fin 3) * 1 + 1 * (y 0).val = 0; have hy : (y 0).val < 1 := (y 0).isLt; omega
  | ⟨1, _⟩ => show win0_3.index t (1 : Fin 3) * 512 + 1 * (y 1).val = 512 * (t.val % 16) + (y 1).val; omega
  | ⟨2, _⟩ => show win0_3.index t (2 : Fin 3) * 3 + 1 * (y 2).val = (y 2).val; omega

/-! ## The result windows' blocks -/

/-- Block t of a whole-array function read through a result window is its row tile t / 16. -/
theorem read_blk4 (G : Cert.Spec.Pts.Idx → EReal) (t : Fin cfg0.N) :
    (((cfg0.win 4).blk t).view.read (Elt Ideal) G : Vec Ideal S1x512x3 .f32) = tile G (t.val / 16) (by have := t.isLt; have : cfg0.N = 256 := N_0; omega) := by
  funext y
  obtain ⟨e0, e1, e2⟩ := blk_idx4 t
  show G (((cfg0.win 4).blk t).view.emb y) = G (ix3 0 (rowOf (t.val / 16) _ (y 1)) (y 2))
  refine congrArg _ ?_
  funext a; apply Fin.ext
  match a with
  | ⟨0, _⟩ => show win0_4.index t (0 : Fin 3) * 1 + 1 * (y 0).val = 0; have hy : (y 0).val < 1 := (y 0).isLt; omega
  | ⟨1, _⟩ => show win0_4.index t (1 : Fin 3) * 512 + 1 * (y 1).val = 512 * (t.val / 16) + (y 1).val; omega
  | ⟨2, _⟩ => show win0_4.index t (2 : Fin 3) * 3 + 1 * (y 2).val = (y 2).val; omega

theorem read_blk5 (G : Cert.Spec.Pts.Idx → EReal) (t : Fin cfg0.N) :
    (((cfg0.win 5).blk t).view.read (Elt Ideal) G : Vec Ideal S1x512x3 .f32) = tile G (t.val / 16) (by have := t.isLt; have : cfg0.N = 256 := N_0; omega) := by
  funext y
  obtain ⟨e0, e1, e2⟩ := blk_idx5 t
  show G (((cfg0.win 5).blk t).view.emb y) = G (ix3 0 (rowOf (t.val / 16) _ (y 1)) (y 2))
  refine congrArg _ ?_
  funext a; apply Fin.ext
  match a with
  | ⟨0, _⟩ => show win0_5.index t (0 : Fin 3) * 1 + 1 * (y 0).val = 0; have hy : (y 0).val < 1 := (y 0).isLt; omega
  | ⟨1, _⟩ => show win0_5.index t (1 : Fin 3) * 512 + 1 * (y 1).val = 512 * (t.val / 16) + (y 1).val; omega
  | ⟨2, _⟩ => show win0_5.index t (2 : Fin 3) * 3 + 1 * (y 2).val = (y 2).val; omega

/-! ## The written blocks cover the result arrays -/

/-- An index of a result array is in point t's block iff each coordinate is in the block's range on its axis. -/
theorem mem_blk4 (t : Fin cfg0.N) (i : S1x8192x3.Idx) :
    i ∈ ((cfg0.win 4).blk t).view.set ↔ ∀ a : Fin 3, win0_4.index t a * S1x512x3.size a ≤ (i a).val ∧ (i a).val < win0_4.index t a * S1x512x3.size a + S1x512x3.size a := by
  show i ∈ ((View.whole main_v0_0).slice (win0_4.rect t)).set ↔ _
  rw [View.set_slice_whole, Rect.mem_set_unit]
  exact Iff.rfl

theorem mem_blk5 (t : Fin cfg0.N) (i : S1x8192x3.Idx) :
    i ∈ ((cfg0.win 5).blk t).view.set ↔ ∀ a : Fin 3, win0_5.index t a * S1x512x3.size a ≤ (i a).val ∧ (i a).val < win0_5.index t a * S1x512x3.size a + S1x512x3.size a := by
  show i ∈ ((View.whole main_v0_1).slice (win0_5.rect t)).set ↔ _
  rw [View.set_slice_whole, Rect.mem_set_unit]
  exact Iff.rfl

/-- Every index of a result array lies in the block of a point that writes it back: row n is in block n / 512, which
    point 16·(n / 512) + 15 writes back. -/
theorem cover4 (i : S1x8192x3.Idx) : ∃ t : Fin cfg0.N, (cfg0.win 4).flush t = true ∧ i ∈ ((cfg0.win 4).blk t).view.set := by
  have hi0 : (i 0).val < 1 := (i 0).isLt
  have hi1 : (i 1).val < 8192 := (i 1).isLt
  have hi2 : (i 2).val < 3 := (i 2).isLt
  have blk_point_lt' : cfg0.N = 256 := N_0
  let t : Fin cfg0.N := ⟨16 * ((i 1).val / 512) + 15, by omega⟩
  have ht : t.val = 16 * ((i 1).val / 512) + 15 := rfl
  obtain ⟨e0, e1, e2⟩ := blk_idx4 t
  refine ⟨t, (flush0_4 t).mpr (by omega), ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 3 ≤ (i 2).val ∧ (i 2).val < win0_4.index t (2 : Fin 3) * 3 + 3; omega

theorem cover5 (i : S1x8192x3.Idx) : ∃ t : Fin cfg0.N, (cfg0.win 5).flush t = true ∧ i ∈ ((cfg0.win 5).blk t).view.set := by
  have hi0 : (i 0).val < 1 := (i 0).isLt
  have hi1 : (i 1).val < 8192 := (i 1).isLt
  have hi2 : (i 2).val < 3 := (i 2).isLt
  have blk_point_lt' : cfg0.N = 256 := N_0
  let t : Fin cfg0.N := ⟨16 * ((i 1).val / 512) + 15, by omega⟩
  have ht : t.val = 16 * ((i 1).val / 512) + 15 := rfl
  obtain ⟨e0, e1, e2⟩ := blk_idx5 t
  refine ⟨t, (flush0_5 t).mpr (by omega), ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 3 ≤ (i 2).val ∧ (i 2).val < win0_5.index t (2 : Fin 3) * 3 + 3; omega

end Cert.KernelIdeal.Fr

end
-- ==== Proof.KI.Final.lean ====
/-
  The kernel's two results as whole-array functions of its arguments, at the ideal instance.

  After the point at position n the three running sums in scratch are the closed-form recursion over row tiles of the
  two argument arrays; at a point of column tile 15 the blocks written back are the two specification functions' row
  tile; those points' blocks tile the result arrays; so each result array ends holding its specification function.
-/
import proofs.«106366_j31361851195747_1_alg».proof.Proof.KI.Launch
import proofs.«106366_j31361851195747_1_alg».proof.Proof.KI.Pieces
import proofs.«106366_j31361851195747_1_alg».proof.Proof.KI.ValueMath
import proofs.«106366_j31361851195747_1_alg».proof.Proof.KI.Blocks
import Idealize.ShloMosaic.Lib.Pipeline.Value

set_option maxRecDepth 16384

noncomputable section

namespace Cert.KernelIdeal.Fr

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The positions and the momenta on core c, as the region finds them. -/
abbrev posOf (c : Dev nD) : Cert.Spec.Pts.Idx → EReal := V m c main_arg1
abbrev momOf (c : Dev nD) : Cert.Spec.Pts.Idx → EReal := V m c main_arg0

theorem lt256 (t : Fin cfg0.N) : t.val < 256 := lt_of_lt_of_eq t.isLt (show cfg0.N = 256 from N_0)

/-- The running sums the body leaves after the point at position n are the closed-form recursion's. -/
theorem scr_eq (c : Dev nD) : ∀ (n : ℕ) (hn : n < cfg0.N),
    (outsAt0 m c n hn).2.2 = accAt (posOf m c) (momOf m c) n (lt_of_lt_of_eq hn (show cfg0.N = 256 from N_0)) := by
  intro n
  induction n with
  | zero =>
    intro hn
    rw [outsAt0_A m c ⟨0, hn⟩ (Nat.zero_mod 16)]
    show scrA_at m c ⟨0, hn⟩ (Nat.zero_mod 16) = _
    unfold scrA_at
    rw [scrA_eq, iblk0_eq, iblk1_eq, iblk2_eq, iblk3_eq]
    rw [accAt_reset _ _ 0 _ (Nat.zero_mod 16)]
  | succ n ih =>
    intro hn
    have hn' : n + 1 < 256 := lt_of_lt_of_eq hn (show cfg0.N = 256 from N_0)
    by_cases h0 : (n + 1) % 16 = 0
    · rw [outsAt0_A m c ⟨n + 1, hn⟩ h0]
      show scrA_at m c ⟨n + 1, hn⟩ h0 = _
      unfold scrA_at
      rw [scrA_eq, iblk0_eq, iblk1_eq, iblk2_eq, iblk3_eq]
      rw [accAt_reset _ _ (n + 1) _ h0]
    · by_cases h1 : (n + 1) % 16 = 15
      · rw [outsAt0_C m c ⟨n + 1, hn⟩ h0 h1]
        unfold stC_at
        rw [stC_eq, iblk0_eq, iblk1_eq, iblk2_eq, iblk3_eq]
        show accStep _ _ _ _ (outsAt0 m c n _).2.2 = _
        rw [ih, accAt_step _ _ (n + 1) _ h0]
        rfl
      · rw [outsAt0_B m c ⟨n + 1, hn⟩ h0 h1]
        show scrB_at m c ⟨n + 1, hn⟩ h0 h1 _ = _
        unfold scrB_at
        rw [scrB_eq, iblk0_eq, iblk1_eq, iblk2_eq, iblk3_eq]
        show accStep _ _ _ _ (outsAt0 m c n _).2.2 = _
        rw [ih, accAt_step _ _ (n + 1) _ h0]
        rfl

/-- At a point of column tile 15 the two result blocks the body leaves. -/
theorem out_last (c : Dev nD) (t : Fin cfg0.N) (h1 : t.val % 16 = 15) :
    (outsAt0 m c t.val t.isLt).1 = outDmom (tile (posOf m c) (t.val / 16) (by have := lt256 t; omega)) (accAt (posOf m c) (momOf m c) t.val (lt256 t))
    ∧ (outsAt0 m c t.val t.isLt).2.1 = outDx (accAt (posOf m c) (momOf m c) t.val (lt256 t)) := by
  have h0 : ¬t.val % 16 = 0 := by omega
  have hs := scr_eq m c t.val t.isLt
  rw [outsAt0_C m c t h0 h1] at hs ⊢
  unfold stC_at at hs ⊢
  rw [stC_eq] at hs ⊢
  rw [iblk0_eq] at hs ⊢
  exact ⟨by rw [show (outDmom _ _, outDx _, _).1 = outDmom _ _ from rfl]; exact congrArg _ hs,
         by rw [show (outDmom _ _, outDx _, _).2.1 = outDx _ from rfl]; exact congrArg _ hs⟩

/-- What a point of column tile 15 writes back into the first result is the specification's row tile, -/
theorem flushed4 (c : Dev nD) (t : Fin cfg0.N) (hf : (cfg0.win 4).flush t = true) :
    (dats m 0 c).flushed 4 t = ((cfg0.win 4).blk t).view.read (Elt Ideal) (Cert.Spec.dmom (posOf m c) (momOf m c)) := by
  have h1 : t.val % 16 = 15 := (flush0_4 t).mp hf
  rw [read_blk4]
  show (dats m 0 c).after 4 t = _
  rw [after0_4, (out_last m c t h1).1]
  funext y
  obtain ⟨a, d, rfl⟩ : ∃ (a : Fin 512) (d : Fin 3), y = ix3 0 a d :=
    ⟨y 1, y 2, (eq_ix3 y).trans (by rw [show y 0 = (0 : Fin 1) from Subsingleton.elim (α := Fin 1) _ _]; try rfl)⟩
  rw [tile_apply, outDmom_accAt _ _ _ _ h1]

/-- and into the second result likewise. -/
theorem flushed5 (c : Dev nD) (t : Fin cfg0.N) (hf : (cfg0.win 5).flush t = true) :
    (dats m 0 c).flushed 5 t = ((cfg0.win 5).blk t).view.read (Elt Ideal) (Cert.Spec.dx (posOf m c) (momOf m c)) := by
  have h1 : t.val % 16 = 15 := (flush0_5 t).mp hf
  rw [read_blk5]
  show (dats m 0 c).after 5 t = _
  rw [after0_5, (out_last m c t h1).2]
  funext y
  obtain ⟨a, d, rfl⟩ : ∃ (a : Fin 512) (d : Fin 3), y = ix3 0 a d :=
    ⟨y 1, y 2, (eq_ix3 y).trans (by rw [show y 0 = (0 : Fin 1) from Subsingleton.elim (α := Fin 1) _ _]; try rfl)⟩
  rw [tile_apply, outDx_accAt _ _ _ _ h1]

/-- The two result arrays after the run. -/
theorem final4 (c : Dev nD) : (dats m 0 c).arrAt 4 cfg0.N = Cert.Spec.dmom (posOf m c) (momOf m c) :=
  (dats m 0 c).arrAt_eq_of_cover 4 (Cert.Spec.dmom (posOf m c) (momOf m c)) (fun t hf => flushed4 m c t hf) cover4
theorem final5 (c : Dev nD) : (dats m 0 c).arrAt 5 cfg0.N = Cert.Spec.dx (posOf m c) (momOf m c) :=
  (dats m 0 c).arrAt_eq_of_cover 5 (Cert.Spec.dx (posOf m c) (momOf m c)) (fun t hf => flushed5 m c t hf) cover5

/-- THE VALUE RUN: the idealized kernel runs to the end, its two results hold the specification functions of its two
    arguments, and the arguments end unchanged. -/
theorem value_run : θ_run defs (onTc (τ := τ) (main (F := Ideal))) ⟨m, fun _ => 0, ρ⟩ (fun r => ∀ c : Dev nD,
      r.2.mem ((c.tc : Thread nD τ).loc main_v0_0) = Cert.Spec.dmom (posOf m c) (momOf m c)
      ∧ r.2.mem ((c.tc : Thread nD τ).loc main_v0_1) = Cert.Spec.dx (posOf m c) (momOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c 4).trans (final4 m c), (h c 5).trans (final5 m c),
     (h c 1).trans (((dats m 0 c).arrAt_in 1 rfl _).trans (A_eq m c 1)),
     (h c 0).trans (((dats m 0 c).arrAt_in 0 rfl _).trans (A_eq m c 0))⟩) (run_main m ρ)

end Cert.KernelIdeal.Fr

end
-- ==== Proof.RefRead.lean ====
/-
  The reference's run and its operations read one at a time, brought in for the value bridge.
-/
import proofs.«106366_j31361851195747_1_alg».proof.Proof.Gen.ReferenceIdeal.Run
import proofs.«106366_j31361851195747_1_alg».proof.Proof.Gen.ReferenceIdeal.Read
-- ==== Proof.RefValue.lean ====
/-
  The reference program's two results, read index by index at the ideal instance, are the specification's functions.

  Stage by stage: the sums of squares are |x_n|², the two contractions over the coordinate axis are the inner products
  ⟨x_n, x_m⟩ and ⟨p_n, p_m⟩, the exponential of -γ·((|x_n|² + |x_m|²) - 2⟨x_n, x_m⟩) is the Gaussian weight k(n, m), its
  product with ⟨p_n, p_m⟩ is w(n, m); the row sum and the contraction with x over m give Σ_m w(n, m) and
  Σ_m w(n, m)·x_m,d, and the first result is -((-2γ)·(x_n,d·Σ_m w(n, m) - Σ_m w(n, m)·x_m,d)). The reference forms the
  Gaussian weight a second time for the second result, Σ_m k(n, m)·p_m,d. Every float constant stays the pattern it is;
  only the zero that starts a sum is evaluated.
-/
import proofs.«106366_j31361851195747_1_alg».proof.Proof.RefRead
import proofs.«106366_j31361851195747_1_alg».proof.Proof.Spec
import Idealize.ShloMosaic.PureOps.Ideal.Laws
import Idealize.ShloMosaic.Lib.ValueIdx

open scoped BigOperators

noncomputable section

namespace Cert.ReferenceIdeal.RefValue

open Idealize.ShloMosaic Idealize.ShloMosaic.ValueIdx

/-- The arrays of points, as the reference's operations type them. -/
abbrev Arr : Type := (⟨S1x8192x3, .f32⟩ : BufTy).Contents (Elt Ideal)

/-! ## The index functions of the reductions and contractions, by coordinates -/

/-- The leading axis has one element. -/
theorem lead0 (a : Fin 1) : a = 0 := Subsingleton.elim _ _

/-- Row n of the points, coordinate k: the index a sum over the coordinate axis reads. -/
theorem row_idx (i : S1x8192.Idx) (k : Fin 3) : Read.idx_main_v1 i k = ix3 0 (i 1) k := funext fun a => by
  match a with
  | ⟨0, _⟩ => exact Fin.ext (Fin.val_eq_zero (i 0))
  | ⟨1, _⟩ => rfl
  | ⟨2, _⟩ => rfl

/-- The left operand of a contraction over the coordinate axis is read at point n = i 1 … -/
theorem pair_lidx (i : S1x8192x8192.Idx) (k : Fin 3) : Read.lidx_main_v4 i k = ix3 0 (i 1) k := funext fun a => by
  match a with
  | ⟨0, _⟩ => exact Fin.ext (Fin.val_eq_zero (i 0))
  | ⟨1, _⟩ => rfl
  | ⟨2, _⟩ => rfl

/-- … and the right operand at point m = i 2. -/
theorem pair_ridx (i : S1x8192x8192.Idx) (k : Fin 3) : Read.ridx_main_v4 i k = ix3 0 (i 2) k := funext fun a => by
  match a with
  | ⟨0, _⟩ => exact Fin.ext (Fin.val_eq_zero (i 0))
  | ⟨1, _⟩ => rfl
  | ⟨2, _⟩ => rfl

/-- The right operand of a contraction over the points is read at point k, coordinate d = i 2. -/
theorem pt_ridx (i : S1x8192x3.Idx) (k : Fin 8192) : Read.ridx_main_v19 i k = ix3 0 k (i 2) := funext fun a => by
  match a with
  | ⟨0, _⟩ => exact Fin.ext (Fin.val_eq_zero (i 0))
  | ⟨1, _⟩ => rfl
  | ⟨2, _⟩ => rfl

/-! ## The stages of the first result -/

/-- The first sum of squares at (0, n) is |x_n|². -/
theorem v1_eq (x : Arr) (i : S1x8192.Idx) : Read.val_main_v1 (F := Ideal) x i = Spec.sq x (i 1) := by
  rw [Read.val_main_v1_apply, Read.val_main_cst_apply, Ideal.ofBits_def, Ideal.ofBits_zero_f32, zero_add]
  unfold Spec.sq
  refine Finset.sum_congr rfl fun k _ => ?_
  rw [Read.val_main_v0_apply, row_idx i k, Ideal.mulf_def]
  rfl

/-- So is the second. -/
theorem v3_eq (x : Arr) (i : S1x8192.Idx) : Read.val_main_v3 (F := Ideal) x i = Spec.sq x (i 1) := by
  rw [Read.val_main_v3_apply, Read.val_main_cst_0_apply, Ideal.ofBits_def, Ideal.ofBits_zero_f32, zero_add]
  unfold Spec.sq
  refine Finset.sum_congr rfl fun k _ => ?_
  have e : Read.idx_main_v3 i k = ix3 0 (i 1) k := row_idx i k
  rw [Read.val_main_v2_apply, e, Ideal.mulf_def]
  rfl

/-- The contraction of x with itself over the coordinate axis is ⟨x_n, x_m⟩. -/
theorem v4_eq (x : Arr) (i : S1x8192x8192.Idx) : Read.val_main_v4 (F := Ideal) x i = Spec.inner x x (i 1) (i 2) := by
  rw [Read.val_main_v4_apply]
  unfold Spec.inner
  refine Finset.sum_congr rfl fun k _ => ?_
  rw [pair_lidx i k, pair_ridx i k]
  rfl

/-- The exponential stage is the Gaussian weight k(n, m). -/
theorem v15_eq (x : Arr) (i : S1x8192x8192.Idx) : Read.val_main_v15 (F := Ideal) x i = Spec.gauss x (i 1) (i 2) := by
  rw [Read.val_main_v15_apply, Read.val_main_v14_apply, Read.val_main_v13_apply, Read.val_main_cst_2_apply,
    Read.val_main_v12_apply, Read.val_main_v9_apply, Read.val_main_v7_apply, Read.val_main_v5_apply,
    Read.val_main_v8_apply, Read.val_main_v6_apply, Read.val_main_v11_apply, Read.val_main_v10_apply,
    Read.val_main_cst_1_apply, v1_eq, v3_eq, v4_eq]
  simp only [Ideal.hostUnary_exp_def, Ideal.mulf_def, Ideal.subf_def, Ideal.addf_def, Ideal.ofBits_def]
  rfl

/-- The contraction of p with itself over the coordinate axis is ⟨p_n, p_m⟩. -/
theorem v16_eq (p : Arr) (i : S1x8192x8192.Idx) : Read.val_main_v16 (F := Ideal) p i = Spec.inner p p (i 1) (i 2) := by
  rw [Read.val_main_v16_apply]
  unfold Spec.inner
  refine Finset.sum_congr rfl fun k _ => ?_
  have el : Read.lidx_main_v16 i k = ix3 0 (i 1) k := pair_lidx i k
  have er : Read.ridx_main_v16 i k = ix3 0 (i 2) k := pair_ridx i k
  rw [el, er]
  rfl

/-- Their product is w(n, m). -/
theorem v17_eq (p x : Arr) (i : S1x8192x8192.Idx) : Read.val_main_v17 (F := Ideal) p x i = Spec.wgt x p (i 1) (i 2) := by
  rw [Read.val_main_v17_apply, v15_eq, v16_eq, Ideal.mulf_def]
  rfl

/-- The row sum is Σ_m w(n, m). -/
theorem v18_eq (p x : Arr) (i : S1x8192.Idx) : Read.val_main_v18 (F := Ideal) p x i = Spec.rowSum x p (i 1) := by
  rw [Read.val_main_v18_apply, Read.val_main_cst_3_apply, Ideal.ofBits_def, Ideal.ofBits_zero_f32, zero_add]
  unfold Spec.rowSum
  refine Finset.sum_congr rfl fun k _ => ?_
  rw [v17_eq]
  rfl

/-- The contraction with x over the points is Σ_m w(n, m)·x_m,d. -/
theorem v19_eq (p x : Arr) (i : S1x8192x3.Idx) : Read.val_main_v19 (F := Ideal) p x i = Spec.wpos x p (i 1) (i 2) := by
  rw [Read.val_main_v19_apply]
  unfold Spec.wpos
  refine Finset.sum_congr rfl fun k _ => ?_
  rw [v17_eq, pt_ridx i k]
  rfl

/-- THE FIRST RESULT is the specification's -((-2γ)·(x·Σ_m w - Σ_m w·x_m)). -/
theorem v26_eq (x0 x1 : (⟨S1x8192x3, .f32⟩ : BufTy).Contents (Elt Ideal)) :
    Cert.ReferenceIdeal.Read.val_main_v26 (F := Ideal) x0 x1 = Cert.Spec.dmomRef x1 x0 := by
  funext i
  obtain ⟨a, n, d, rfl⟩ : ∃ a n d, i = ix3 a n d := ⟨_, _, _, eq_ix3 i⟩
  obtain rfl := lead0 a
  rw [Read.val_main_v26_apply, Read.val_main_v25_apply, Read.val_main_v24_apply, Read.val_main_cst_4_apply,
    Read.val_main_v23_apply, Read.val_main_v22_apply, Read.val_main_v21_apply, Read.val_main_v20_apply, v18_eq, v19_eq]
  simp only [Ideal.hostNegf_def, Ideal.negf_def, Ideal.mulf_def, Ideal.subf_def, Ideal.ofBits_def]
  rfl

/-! ## The stages of the second result: the Gaussian weight once more -/

theorem v28_eq (x : Arr) (i : S1x8192.Idx) : Read.val_main_v28 (F := Ideal) x i = Spec.sq x (i 1) := by
  rw [Read.val_main_v28_apply, Read.val_main_cst_5_apply, Ideal.ofBits_def, Ideal.ofBits_zero_f32, zero_add]
  unfold Spec.sq
  refine Finset.sum_congr rfl fun k _ => ?_
  have e : Read.idx_main_v28 i k = ix3 0 (i 1) k := row_idx i k
  rw [Read.val_main_v27_apply, e, Ideal.mulf_def]
  rfl

theorem v30_eq (x : Arr) (i : S1x8192.Idx) : Read.val_main_v30 (F := Ideal) x i = Spec.sq x (i 1) := by
  rw [Read.val_main_v30_apply, Read.val_main_cst_6_apply, Ideal.ofBits_def, Ideal.ofBits_zero_f32, zero_add]
  unfold Spec.sq
  refine Finset.sum_congr rfl fun k _ => ?_
  have e : Read.idx_main_v30 i k = ix3 0 (i 1) k := row_idx i k
  rw [Read.val_main_v29_apply, e, Ideal.mulf_def]
  rfl

theorem v31_eq (x : Arr) (i : S1x8192x8192.Idx) : Read.val_main_v31 (F := Ideal) x i = Spec.inner x x (i 1) (i 2) := by
  rw [Read.val_main_v31_apply]
  unfold Spec.inner
  refine Finset.sum_congr rfl fun k _ => ?_
  have el : Read.lidx_main_v31 i k = ix3 0 (i 1) k := pair_lidx i k
  have er : Read.ridx_main_v31 i k = ix3 0 (i 2) k := pair_ridx i k
  rw [el, er]
  rfl

/-- The second exponential stage is k(n, m) again. -/
theorem v42_eq (x : Arr) (i : S1x8192x8192.Idx) : Read.val_main_v42 (F := Ideal) x i = Spec.gauss x (i 1) (i 2) := by
  rw [Read.val_main_v42_apply, Read.val_main_v41_apply, Read.val_main_v40_apply, Read.val_main_cst_8_apply,
    Read.val_main_v39_apply, Read.val_main_v36_apply, Read.val_main_v34_apply, Read.val_main_v32_apply,
    Read.val_main_v35_apply, Read.val_main_v33_apply, Read.val_main_v38_apply, Read.val_main_v37_apply,
    Read.val_main_cst_7_apply, v28_eq, v30_eq, v31_eq]
  simp only [Ideal.hostUnary_exp_def, Ideal.mulf_def, Ideal.subf_def, Ideal.addf_def, Ideal.ofBits_def]
  rfl

/-- THE SECOND RESULT is the specification's Σ_m k(n, m)·p_m,d. -/
theorem v43_eq (x0 x1 : (⟨S1x8192x3, .f32⟩ : BufTy).Contents (Elt Ideal)) :
    Cert.ReferenceIdeal.Read.val_main_v43 (F := Ideal) x0 x1 = Cert.Spec.dx x1 x0 := by
  funext i
  rw [Read.val_main_v43_apply]
  show _ = Spec.kmom x1 x0 (i 1) (i 2)
  unfold Spec.kmom
  refine Finset.sum_congr rfl fun k _ => ?_
  have er : Read.ridx_main_v43 i k = ix3 0 k (i 2) := pt_ridx i k
  rw [v42_eq, er]
  rfl

end Cert.ReferenceIdeal.RefValue

end
-- ==== Proof.lean ====
/-
  The certificate's five claims.

  The kernel tiles the 8192 × 8192 matrix of Gaussian weights into 16 × 16 tiles of 512 × 512 and, for each row tile,
  adds the tiles' contributions over the sixteen column tiles in three running sums; the reference forms the whole
  matrix at once. Over the extended reals a sum over 8192 indices is the sum over sixteen tiles of the sums inside each
  tile (addition is commutative and associative there, with no condition on the values), a change of float format is
  the identity, and -((-200)·y) = 200·y for every y; so the two programs end with the same two arrays. The three frames:
  each program runs to its end without a fault and leaves its two argument arrays unchanged.
-/
import proofs.«106366_j31361851195747_1_alg».proof.Defs
import proofs.«106366_j31361851195747_1_alg».proof.Proof.Gen.Kernel
import proofs.«106366_j31361851195747_1_alg».proof.Proof.Gen.KernelIdeal
import proofs.«106366_j31361851195747_1_alg».proof.Proof.Gen.ReferenceIdeal
import proofs.«106366_j31361851195747_1_alg».proof.Proof.Gen.Pre_finite_inputs
import proofs.«106366_j31361851195747_1_alg».proof.Proof.KB.Launch
import proofs.«106366_j31361851195747_1_alg».proof.Proof.KI.Final
import proofs.«106366_j31361851195747_1_alg».proof.Proof.RefValue
import proofs.«106366_j31361851195747_1_alg».proof.Proof.SpecSums
import Idealize.ShloMosaic.Adequacy
import Idealize.ShloMosaic.Init

noncomputable section

namespace Cert.Proof

open Idealize.ShloMosaic Idealize.ShloMosaic.TcCoe Idealize.SL.Sem

/-- The word-level kernel runs to its end and leaves its arguments unchanged. -/
theorem frame_k : @Cert.frame_Kernel Cert.Kernel.Gen.facts Cert.Pre_finite_inputs.Gen.facts :=
  fun m ρ _ => Cert.Kernel.Fr.frame m ρ

/-- So does the idealized kernel. -/
theorem frame_ki : @Cert.frame_KernelIdeal Cert.KernelIdeal.Gen.facts Cert.Pre_finite_inputs.Gen.facts :=
  fun m ρ _ => Cert.KernelIdeal.Fr.frame m ρ

/-- The reference is host operations only: its run, with the results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- Both idealized programs end with the specification's two arrays of the (agreeing) arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.dmom (Cert.KernelIdeal.Fr.posOf m c) (Cert.KernelIdeal.Fr.momOf m c),
    fun c => Cert.Spec.dx (Cert.KernelIdeal.Fr.posOf m c) (Cert.KernelIdeal.Fr.momOf m c),
    Cert.KernelIdeal.Fr.value_run m ρ, ?_⟩
  refine (θ_run Cert.ReferenceIdeal.defs _ _).mono (fun _ h c => ⟨(h c).1.trans ?_, (h c).2.1.trans ?_, (h c).2.2.1, (h c).2.2.2⟩)
    (Cert.ReferenceIdeal.Value.run (F := Ideal) m' ρ')
  · rw [Cert.ReferenceIdeal.Read.val_main_v26_eq, Cert.ReferenceIdeal.RefValue.v26_eq, Cert.Spec.dmomRef_eq, (hagree c).1, (hagree c).2]
  · rw [Cert.ReferenceIdeal.Read.val_main_v43_eq, Cert.ReferenceIdeal.RefValue.v43_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
